-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048x2048 .f32) (main_arg12 : FVec F S2048 .f32) (main_arg13 : FVec F S2048x2048 .f32) (main_arg14 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S128x256 : Shape := ⟨2, ![128, 256]⟩
abbrev S2048x256 : Shape := ⟨2, ![2048, 256]⟩
abbrev S128x2048 : Shape := ⟨2, ![128, 2048]⟩

abbrev nBuf : Space → Nat
  | .hbm => 31
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S8192x2048, .bf16⟩
  | .hbm, ⟨16, _⟩ => ⟨S8192x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_33 : BitVec 32 := 0#32
  let v45 : BitVec 1 := Scalar.cmpi .ne v44 c0_i32_33
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x256_S2048x256_S128x2048_1_1_0_0_n_n_wf : DotDims.WF S128x256 S2048x256 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x2048.size a
  hwx0_0 : ∀ i : grid0.Coords, EltTy.bits .bf16 = 32 ∨ (Rect.block (s := S8192x2048) S128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S8192x2048.size a
  hwx0_1 : ∀ i : grid0.Coords, EltTy.bits .bf16 = 32 ∨ (Rect.block (s := S8192x2048) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .bf16 = 32 ∨ (Rect.block (s := S2048x2048) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2048.size a ≤ S1x2048.size a
  hwx0_13 : ∀ i : grid0.Coords, EltTy.bits .f32 = 32 ∨ (Rect.block (s := S1x2048) S1x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x2048.size a ≤ S8192x2048.size a
  hwx0_14 : ∀ i : grid0.Coords, EltTy.bits .f32 = 32 ∨ (Rect.block (s := S8192x2048) S128x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x2048.size a ≤ S8192x2048.size a
  hwx0_15 : ∀ i : grid0.Coords, EltTy.bits .f32 = 32 ∨ (Rect.block (s := S8192x2048) S128x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x2048.size a ≤ S8192x2048.size a
  hwx0_16 : ∀ i : grid0.Coords, EltTy.bits .f32 = 32 ∨ (Rect.block (s := S8192x2048) S128x2048.size (cc0_transform_16 i) (hinb0_16 i)).WholeWords (EltTy.packing .f32)

variable [Facts₀]

def dot_S128x256_S2048x256_S128x2048_1_1_0_0_n_n : DotDims S128x256 S2048x256 S128x2048 where
  lhsContracting := [1]
  rhsContracting := [1]
  lhsNonContracting := [0]
  rhsNonContracting := [0]
  lhsBatch := []
  rhsBatch := []
  wf := dot_S128x256_S2048x256_S128x2048_1_1_0_0_n_n_wf

abbrev win0_0 : Pipeline.Window sig grid0 :=
  Pipeline.Window.ofSpec (Memref.whole main_v0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S128x2048.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S128x2048.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S128x2048.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | 16 => fun i => !(k0_cond2 i == 1#1) | ⟨_ + 17, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S2048x6144 : Shape := ⟨2, ![2048, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S6144x2048, .f32⟩
  | .hbm, ⟨16, _⟩ => ⟨S6144x2048, .f32⟩
  | .hbm, ⟨17, _⟩ => ⟨S6144, .f32⟩
  | .hbm, ⟨18, _⟩ => ⟨S6144, .f32⟩
  | .hbm, ⟨19, _⟩ => ⟨S2048x6144, .f32⟩
  | .hbm, ⟨20, _⟩ => ⟨S8192x6144, .f32⟩
  | .hbm, ⟨21, _⟩ => ⟨S1x6144, .f32⟩
  | .hbm, ⟨22, _⟩ => ⟨S8192x6144, .f32⟩
  | .hbm, ⟨23, _⟩ => ⟨S8192x6144, .f32⟩
  | .hbm, ⟨24, _⟩ => ⟨S2048x6144, .f32⟩
  | .hbm, ⟨25, _⟩ => ⟨S8192x6144, .f32⟩
  | .hbm, ⟨26, _⟩ => ⟨S8192x6144, .f32⟩
  | .hbm, ⟨27, _⟩ => ⟨S1x6144, .f32⟩
  | .hbm, ⟨28, _⟩ => ⟨S8192x6144, .f32⟩
  | .hbm, ⟨29, _⟩ => ⟨S8192x6144, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  concatenates_S2048x2048_S2048x2048_S2048x2048_S6144x2048_d0 : Shape.Concatenates [S2048x2048, S2048x2048, S2048x2048] S6144x2048 0
  concatenates_S2048_S2048_S2048_S6144_d0 : Shape.Concatenates [S2048, S2048, S2048] S6144 0
  transposes_S6144x2048_S2048x6144_1_0 : S6144x2048.Transposes [1, 0] S2048x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x2048_S2048x6144_S8192x6144_1_0_0_1_n_n_wf : DotDims.WF S8192x2048 S2048x6144 S8192x6144 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf

class Facts : Prop extends Facts₀ where

variable [Facts]
-- ==== Proof.CellSpec.lean ====
/-
  The LSTM cell as ONE function of its argument arrays, index by index, over the extended reals.

  With activations x, h, c of shape [8192, 2048], weight matrices of shape [2048, 2048] stored output-major
  (y = a · Wᵀ + b) and biases of shape [2048], a gate's pre-activation at batch row b and unit n is

      pre b n = ((∑ j, x[b, j] · W[n, j]) + bx[n] + ∑ j, h[b, j] · U[n, j]) + bh[n]

  (the additions in the order the plain formula x·Wᵀ + bx + h·Uᵀ + bh makes them), and the cell is

      c' = σ(pre_m) · c + σ(pre_i) · tanh(pre_m)        h' = σ(pre_o) · tanh(c')

  where the memory gate's pre-activation feeds both the logistic "forget" factor and the tanh candidate.
-/
import Idealize.ShloMosaic.Lib.ValueIdx
import Idealize.ShloMosaic.PureOps.Ideal.Laws

noncomputable section

open scoped BigOperators

namespace Cert.CellSpec

open Idealize.ShloMosaic Idealize.ShloMosaic.ValueIdx

/-- Activations: [8192, 2048]. -/
abbrev SAct : Shape := ⟨2, ![8192, 2048]⟩
/-- A weight matrix: [2048, 2048], rows the output units. -/
abbrev SW : Shape := ⟨2, ![2048, 2048]⟩
/-- A bias: [2048]. -/
abbrev SB : Shape := ⟨1, ![2048]⟩

/-- A gate's pre-activation at batch row `b` and unit `n`. -/
def pre (x h : FVec Ideal SAct .f32) (W U : FVec Ideal SW .f32) (bx bh : FVec Ideal SB .f32) (b : Fin 8192) (n : Fin 2048) : EReal :=
  (((∑ j : Fin 2048, x (ix2 b j) * W (ix2 n j)) + bx (ix1 n)) + ∑ j : Fin 2048, h (ix2 b j) * U (ix2 n j)) + bh (ix1 n)

/-- The new cell state. -/
def cNew (x h c : FVec Ideal SAct .f32) (Wi Wm : FVec Ideal SW .f32) (bi bm : FVec Ideal SB .f32)
    (Ui Um : FVec Ideal SW .f32) (di dm : FVec Ideal SB .f32) : FVec Ideal SAct .f32 := fun i =>
  Ideal.logistic (pre x h Wm Um bm dm (i 0) (i 1)) * c i
    + Ideal.logistic (pre x h Wi Ui bi di (i 0) (i 1)) * Ideal.tanh (pre x h Wm Um bm dm (i 0) (i 1))

/-- The new hidden state. -/
def hNew (x h c : FVec Ideal SAct .f32) (Wi Wm Wo : FVec Ideal SW .f32) (bi bm bo : FVec Ideal SB .f32)
    (Ui Um Uo : FVec Ideal SW .f32) (di dm do_ : FVec Ideal SB .f32) : FVec Ideal SAct .f32 := fun i =>
  Ideal.logistic (pre x h Wo Uo bo do_ (i 0) (i 1)) * Ideal.tanh (cNew x h c Wi Wm bi bm Ui Um di dm i)

end Cert.CellSpec

end
-- ==== Proof.RefIsSpec.lean ====
/-
  The reference program, read one operation at a time, is the LSTM cell of CellSpec.

  The reference stacks the three x-weight matrices (and the three h-weight matrices, and the biases) into one
  [6144, 2048] matrix, multiplies once, adds the stacked biases and splits the [8192, 6144] result into three
  column ranges. Column n + 2048·g of the stacked product reads row n of gate g's matrix, so each range is that
  gate's pre-activation; the logistic function is spelt 1 / (1 + exp (−v)), which is the extended reals' logistic.
-/
import proofs.«106272_j28020366639121_1_alg».proof.Proof.Gen.ReferenceIdeal.Read
import proofs.«106272_j28020366639121_1_alg».proof.Proof.CellSpec
import Idealize.ShloMosaic.Lib.Pipeline.Value
import Idealize.ShloMosaic.Lib.ValueIdx
import Idealize.ShloMosaic.PureOps.Ideal.Laws

noncomputable section

open scoped BigOperators

namespace Cert.RefSpec

open Cert.ReferenceIdeal Cert.ReferenceIdeal.Read Cert.CellSpec
open Idealize.ShloMosaic Idealize.ShloMosaic.ValueIdx

/-- Of three pieces of one shape listed in order, the one at position `g`. -/
theorem piece_at {α : Type} {s : Shape} (y0 y1 y2 : s.Idx → α) (g : Fin 3) :
    ([⟨s, y0⟩, ⟨s, y1⟩, ⟨s, y2⟩] : List ((s : Shape) × (s.Idx → α)))[g.val]'g.isLt = ⟨s, ![y0, y1, y2] g⟩ := by
  match g with
  | ⟨0, _⟩ => rfl
  | ⟨1, _⟩ => rfl
  | ⟨2, _⟩ => rfl

/-- The rows taken by the pieces before piece `g` of three [2048, 2048] pieces: 2048 each. -/
theorem rows_before {α : Type} (y0 y1 y2 : S2048x2048.Idx → α) (g : Fin 3) :
    (((([⟨S2048x2048, y0⟩, ⟨S2048x2048, y1⟩, ⟨S2048x2048, y2⟩] : List ((s : Shape) × (s.Idx → α))).take g.val).map (·.1)).map
      (fun s => if h : s.rank = S6144x2048.rank then s.size ((0 : Fin S6144x2048.rank).cast h.symm) else 0)).sum = 2048 * g.val := by
  match g with
  | ⟨0, _⟩ => rfl
  | ⟨1, _⟩ => rfl
  | ⟨2, _⟩ => rfl

/-- The entries taken by the pieces before piece `g` of three [2048] pieces: 2048 each. -/
theorem entries_before {α : Type} (y0 y1 y2 : S2048.Idx → α) (g : Fin 3) :
    (((([⟨S2048, y0⟩, ⟨S2048, y1⟩, ⟨S2048, y2⟩] : List ((s : Shape) × (s.Idx → α))).take g.val).map (·.1)).map
      (fun s => if h : s.rank = S6144.rank then s.size ((0 : Fin S6144.rank).cast h.symm) else 0)).sum = 2048 * g.val := by
  match g with
  | ⟨0, _⟩ => rfl
  | ⟨1, _⟩ => rfl
  | ⟨2, _⟩ => rfl

/-- Off the row axis, an index of a piece and an index of the stack with the same column agree. -/
theorem cols_agree (r : Fin 6144) (n j : Fin 2048) :
    ∀ b : Fin S2048x2048.rank, b.cast (rfl : S2048x2048.rank = S6144x2048.rank) ≠ (0 : Fin S6144x2048.rank) →
      ((ix2 n j : S2048x2048.Idx) b).val = ((ix2 r j : S6144x2048.Idx) (b.cast rfl)).val := by
  intro b hb
  match b with
  | ⟨0, _⟩ => exact absurd rfl hb
  | ⟨1, _⟩ => rfl

/-- A vector has no axis off its one axis. -/
theorem no_other_axis (r : Fin 6144) (n : Fin 2048) :
    ∀ b : Fin S2048.rank, b.cast (rfl : S2048.rank = S6144.rank) ≠ (0 : Fin S6144.rank) →
      ((ix1 n : S2048.Idx) b).val = ((ix1 r : S6144.Idx) (b.cast rfl)).val := by
  intro b hb
  match b with
  | ⟨0, _⟩ => exact absurd rfl hb

/-- Three [2048, 2048] matrices stacked along the rows: row `n + 2048·g` of the stack is row `n` of the `g`-th. -/
theorem stack_rows {α : Type} (y0 y1 y2 : S2048x2048.Idx → α)
    (h : Shape.Concatenates [S2048x2048, S2048x2048, S2048x2048] S6144x2048 0)
    (g : Fin 3) (n j : Fin 2048) (hn : n.val + 2048 * g.val < 6144) :
    concatenate S6144x2048 0 [⟨S2048x2048, y0⟩, ⟨S2048x2048, y1⟩, ⟨S2048x2048, y2⟩] h (ix2 ⟨n.val + 2048 * g.val, hn⟩ j)
      = (![y0, y1, y2] g) (ix2 n j) := by
  have ha : 2048 * g.val + ((ix2 n j : S2048x2048.Idx) ((0 : Fin S6144x2048.rank).cast (rfl : S2048x2048.rank = S6144x2048.rank).symm)).val
      = ((ix2 ⟨n.val + 2048 * g.val, hn⟩ j : S6144x2048.Idx) 0).val := by
    show 2048 * g.val + n.val = n.val + 2048 * g.val
    omega
  exact concatenate_apply_piece (t := S6144x2048) 0 [⟨S2048x2048, y0⟩, ⟨S2048x2048, y1⟩, ⟨S2048x2048, y2⟩] h
    (ix2 ⟨n.val + 2048 * g.val, hn⟩ j) g.val g.isLt S2048x2048 (![y0, y1, y2] g) (piece_at y0 y1 y2 g) rfl (2048 * g.val)
    (rows_before y0 y1 y2 g) (ix2 n j) (cols_agree ⟨n.val + 2048 * g.val, hn⟩ n j) ha

/-- Three [2048] vectors laid end to end: entry `n + 2048·g` is entry `n` of the `g`-th. -/
theorem stack_vec {α : Type} (y0 y1 y2 : S2048.Idx → α)
    (h : Shape.Concatenates [S2048, S2048, S2048] S6144 0)
    (g : Fin 3) (n : Fin 2048) (hn : n.val + 2048 * g.val < 6144) :
    concatenate S6144 0 [⟨S2048, y0⟩, ⟨S2048, y1⟩, ⟨S2048, y2⟩] h (ix1 ⟨n.val + 2048 * g.val, hn⟩)
      = (![y0, y1, y2] g) (ix1 n) := by
  have ha : 2048 * g.val + ((ix1 n : S2048.Idx) ((0 : Fin S6144.rank).cast (rfl : S2048.rank = S6144.rank).symm)).val
      = ((ix1 ⟨n.val + 2048 * g.val, hn⟩ : S6144.Idx) 0).val := by
    show 2048 * g.val + n.val = n.val + 2048 * g.val
    omega
  exact concatenate_apply_piece (t := S6144) 0 [⟨S2048, y0⟩, ⟨S2048, y1⟩, ⟨S2048, y2⟩] h
    (ix1 ⟨n.val + 2048 * g.val, hn⟩) g.val g.isLt S2048 (![y0, y1, y2] g) (piece_at y0 y1 y2 g) rfl (2048 * g.val)
    (entries_before y0 y1 y2 g) (ix1 n) (no_other_axis ⟨n.val + 2048 * g.val, hn⟩ n) ha

/-- The single-precision pattern 0x3F800000 is the number one. -/
theorem one_f32 : Ideal.ofBits .f32 0x3F800000#32 = (1 : EReal) := by
  simp [Ideal.ofBits, Ideal.ieee, -EReal.coe_mul]
  norm_num

/-- The left operand of the product is read at row `b`, contraction position `k`. -/
theorem lhs_at (b : Fin 8192) (c : Fin 6144) (k : Fin 2048) : lidx_main_v5 (ix2 b c) k = ix2 b k := by
  funext a
  match a with
  | ⟨0, _⟩ => rfl
  | ⟨1, _⟩ => rfl

/-- The transposed stack is read at row `c` of the stack, column `k`. -/
theorem rhs_at (b : Fin 8192) (c : Fin 6144) (k : Fin 2048) : idx_main_v4 (ridx_main_v5 (ix2 b c) k) = ix2 c k := by
  funext a
  match a with
  | ⟨0, _⟩ => rfl
  | ⟨1, _⟩ => rfl

/-- The bias broadcast over the rows is read at the column alone. -/
theorem bias_idx (b : Fin 8192) (c : Fin 6144) : idx_main_v6 (idx_main_v7 (ix2 b c)) = ix1 c := by
  funext a
  match a with
  | ⟨0, _⟩ => rfl

/-- The product of the activations with the transposed stack, at column `n + 2048·g`: the row of the
    activations against row `n` of the `g`-th matrix. -/
theorem dot_at (x0 : (⟨S8192x2048, .f32⟩ : BufTy).Contents (Elt Ideal)) (x3 x5 x7 : (⟨S2048x2048, .f32⟩ : BufTy).Contents (Elt Ideal)) (g : Fin 3) (b : Fin 8192) (n : Fin 2048)
    (hn : n.val + 2048 * g.val < 6144) :
    val_main_v5 (F := Ideal) x0 x3 x5 x7 (ix2 b ⟨n.val + 2048 * g.val, hn⟩)
      = ∑ k : Fin 2048, x0 (ix2 b k) * (![x3, x5, x7] g) (ix2 n k) := by
  rw [val_main_v5_apply]
  refine Finset.sum_congr rfl fun k _ => ?_
  rw [val_main_v4_apply, lhs_at, rhs_at]
  unfold val_main_v0
  rw [stack_rows]

/-- The broadcast stacked bias at column `n + 2048·g`: entry `n` of the `g`-th bias. -/
theorem bias_at (x4 x6 x8 : (⟨S2048, .f32⟩ : BufTy).Contents (Elt Ideal)) (g : Fin 3) (b : Fin 8192) (n : Fin 2048)
    (hn : n.val + 2048 * g.val < 6144) :
    val_main_v7 (F := Ideal) x4 x6 x8 (ix2 b ⟨n.val + 2048 * g.val, hn⟩) = (![x4, x6, x8] g) (ix1 n) := by
  rw [val_main_v7_apply, val_main_v6_apply, bias_idx]
  unfold val_main_v2
  exact stack_vec x4 x6 x8 _ g n hn

/-- The stacked pre-activation at column `n + 2048·g` is gate `g`'s pre-activation at unit `n`, the sums and
    the biases added in the order x·Wᵀ + bx + h·Uᵀ + bh. -/
theorem gates_at (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal))
    (g : Fin 3) (b : Fin 8192) (n : Fin 2048) (hn : n.val + 2048 * g.val < 6144) :
    val_main_v14 (F := Ideal) x0 x1 x3 x4 x5 x6 x7 x8 x9 x10 x11 x12 x13 x14 (ix2 b ⟨n.val + 2048 * g.val, hn⟩)
      = (((∑ k : Fin 2048, x0 (ix2 b k) * (![x3, x5, x7] g) (ix2 n k)) + (![x4, x6, x8] g) (ix1 n))
          + ∑ k : Fin 2048, x1 (ix2 b k) * (![x9, x11, x13] g) (ix2 n k)) + (![x10, x12, x14] g) (ix1 n) := by
  -- the second product and the second bias are the same functions, of the other arguments
  have e10 : val_main_v10 (F := Ideal) x1 x9 x11 x13 = val_main_v5 (F := Ideal) x1 x9 x11 x13 := rfl
  have e13 : val_main_v13 (F := Ideal) x10 x12 x14 = val_main_v7 (F := Ideal) x10 x12 x14 := rfl
  rw [val_main_v14_apply, val_main_v11_apply, val_main_v8_apply, e10, e13]
  simp only [Ideal.addf_def]
  rw [dot_at, dot_at, bias_at, bias_at]

/-- Columns [0, 2048) of the stacked pre-activation: the input gate's. -/
theorem gate_i (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal))
    (b : Fin 8192) (n : Fin 2048) :
    val_main_v15 (F := Ideal) x0 x1 x3 x4 x5 x6 x7 x8 x9 x10 x11 x12 x13 x14 (ix2 b n) = pre x0 x1 x3 x9 x4 x10 b n := by
  have hn : n.val + 2048 * (0 : Fin 3).val < 6144 := by
    have := n.isLt
    show n.val + 2048 * 0 < 6144
    omega
  have e : idx_main_v15 (ix2 b n) = ix2 b ⟨n.val + 2048 * (0 : Fin 3).val, hn⟩ := by
    funext a
    match a with
    | ⟨0, _⟩ => rfl
    | ⟨1, _⟩ => exact Fin.ext (by show n.val = n.val + 2048 * 0; omega)
  rw [val_main_v15_apply, e]
  exact gates_at x0 x1 x3 x4 x5 x6 x7 x8 x9 x10 x11 x12 x13 x14 (0 : Fin 3) b n hn

/-- Columns [2048, 4096) of the stacked pre-activation: the memory gate's. -/
theorem gate_m (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal))
    (b : Fin 8192) (n : Fin 2048) :
    val_main_v16 (F := Ideal) x0 x1 x3 x4 x5 x6 x7 x8 x9 x10 x11 x12 x13 x14 (ix2 b n) = pre x0 x1 x5 x11 x6 x12 b n := by
  have hn : n.val + 2048 * (1 : Fin 3).val < 6144 := by
    have := n.isLt
    show n.val + 2048 * 1 < 6144
    omega
  have e : idx_main_v16 (ix2 b n) = ix2 b ⟨n.val + 2048 * (1 : Fin 3).val, hn⟩ := by
    funext a
    match a with
    | ⟨0, _⟩ => rfl
    | ⟨1, _⟩ => exact Fin.ext (by show 2048 + n.val = n.val + 2048 * 1; omega)
  rw [val_main_v16_apply, e]
  exact gates_at x0 x1 x3 x4 x5 x6 x7 x8 x9 x10 x11 x12 x13 x14 (1 : Fin 3) b n hn

/-- Columns [4096, 6144) of the stacked pre-activation: the output gate's. -/
theorem gate_o (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal))
    (b : Fin 8192) (n : Fin 2048) :
    val_main_v17 (F := Ideal) x0 x1 x3 x4 x5 x6 x7 x8 x9 x10 x11 x12 x13 x14 (ix2 b n) = pre x0 x1 x7 x13 x8 x14 b n := by
  have hn : n.val + 2048 * (2 : Fin 3).val < 6144 := by
    have := n.isLt
    show n.val + 2048 * 2 < 6144
    omega
  have e : idx_main_v17 (ix2 b n) = ix2 b ⟨n.val + 2048 * (2 : Fin 3).val, hn⟩ := by
    funext a
    match a with
    | ⟨0, _⟩ => rfl
    | ⟨1, _⟩ => exact Fin.ext (by show 4096 + n.val = n.val + 2048 * 2; omega)
  rw [val_main_v17_apply, e]
  exact gates_at x0 x1 x3 x4 x5 x6 x7 x8 x9 x10 x11 x12 x13 x14 (2 : Fin 3) b n hn

/-- 1 / (1 + exp (−v)) on the input gate's columns is the logistic function of them. -/
theorem logistic_i (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal))
    (i : S8192x2048.Idx) :
    val_main_v23 (F := Ideal) x0 x1 x3 x4 x5 x6 x7 x8 x9 x10 x11 x12 x13 x14 i = Ideal.logistic (val_main_v15 (F := Ideal) x0 x1 x3 x4 x5 x6 x7 x8 x9 x10 x11 x12 x13 x14 i) := by
  rw [val_main_v23_apply, val_main_v22_apply, val_main_cst_0_apply, val_main_v21_apply, val_main_v20_apply,
    val_main_cst_apply, val_main_v19_apply, val_main_v18_apply]
  simp only [Ideal.hostDivf_def, Ideal.addf_def, Ideal.hostUnary_exp_def, Ideal.hostNegf_def, Ideal.negf_def,
    Ideal.ofBits_def, one_f32]
  rfl

/-- 1 / (1 + exp (−v)) on the memory gate's columns is the logistic function of them. -/
theorem logistic_m (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal))
    (i : S8192x2048.Idx) :
    val_main_v29 (F := Ideal) x0 x1 x3 x4 x5 x6 x7 x8 x9 x10 x11 x12 x13 x14 i = Ideal.logistic (val_main_v16 (F := Ideal) x0 x1 x3 x4 x5 x6 x7 x8 x9 x10 x11 x12 x13 x14 i) := by
  rw [val_main_v29_apply, val_main_v28_apply, val_main_cst_2_apply, val_main_v27_apply, val_main_v26_apply,
    val_main_cst_1_apply, val_main_v25_apply, val_main_v24_apply]
  simp only [Ideal.hostDivf_def, Ideal.addf_def, Ideal.hostUnary_exp_def, Ideal.hostNegf_def, Ideal.negf_def,
    Ideal.ofBits_def, one_f32]
  rfl

/-- 1 / (1 + exp (−v)) on the output gate's columns is the logistic function of them. -/
theorem logistic_o (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal))
    (i : S8192x2048.Idx) :
    val_main_v36 (F := Ideal) x0 x1 x3 x4 x5 x6 x7 x8 x9 x10 x11 x12 x13 x14 i = Ideal.logistic (val_main_v17 (F := Ideal) x0 x1 x3 x4 x5 x6 x7 x8 x9 x10 x11 x12 x13 x14 i) := by
  rw [val_main_v36_apply, val_main_v35_apply, val_main_cst_4_apply, val_main_v34_apply, val_main_v33_apply,
    val_main_cst_3_apply, val_main_v32_apply, val_main_v31_apply]
  simp only [Ideal.hostDivf_def, Ideal.addf_def, Ideal.hostUnary_exp_def, Ideal.hostNegf_def, Ideal.negf_def,
    Ideal.ofBits_def, one_f32]
  rfl

/-- The reference's second result (the new cell state) is `cNew` of its arguments. -/
theorem ref_c (x0 x1 x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) :
    val_main_v39 (F := Ideal) x0 x1 x2 x3 x4 x5 x6 x7 x8 x9 x10 x11 x12 x13 x14
      = cNew x0 x1 x2 x3 x5 x4 x6 x9 x11 x10 x12 := by
  funext i
  obtain ⟨b, n, rfl⟩ : ∃ (b : Fin 8192) (n : Fin 2048), i = ix2 b n := ⟨i 0, i 1, eq_ix2 i⟩
  rw [val_main_v39_apply, val_main_v37_apply, val_main_v38_apply, val_main_v30_apply, logistic_m, logistic_i, gate_i, gate_m]
  simp only [Ideal.addf_def, Ideal.mulf_def, Ideal.hostUnary_tanh_def]
  rfl

/-- The reference's first result (the new hidden state) is `hNew` of its arguments. -/
theorem ref_h (x0 x1 x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) :
    val_main_v41 (F := Ideal) x0 x1 x2 x3 x4 x5 x6 x7 x8 x9 x10 x11 x12 x13 x14
      = hNew x0 x1 x2 x3 x5 x7 x4 x6 x8 x9 x11 x13 x10 x12 x14 := by
  funext i
  rw [val_main_v41_apply, val_main_v40_apply, ref_c, logistic_o]
  obtain ⟨b, n, rfl⟩ : ∃ (b : Fin 8192) (n : Fin 2048), i = ix2 b n := ⟨i 0, i 1, eq_ix2 i⟩
  rw [gate_o]
  simp only [Ideal.mulf_def, Ideal.hostUnary_tanh_def]
  rfl

end Cert.RefSpec

end
-- ==== Proof.KernelPieces.lean ====
/-
  What each kind of grid point leaves behind, as values.

  The kernel walks a [64, 8] grid: 64 row blocks of 128 batch rows, and for each of them 8 K-tiles of 256 columns.
  Three accumulators (one per gate) live across the 8 tiles of a row block. At the first tile they are zeroed and
  then receive the tile's product x·Wᵀ + h·Uᵀ; at the later tiles the product is added to what they held; at the
  last tile, after that addition, the two output blocks are computed from the three finished accumulators, the six
  biases and the old cell state. Each statement below says which pure function of the loaded blocks (and of the
  accumulators' previous contents) a point of that kind stores.
-/
import proofs.«106272_j28020366639121_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-! ## A point in the middle of a row block's run (neither its first nor its last K-tile): each accumulator gets
    its gate's tile product added. -/

theorem accB0 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : ¬cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay10 x0 x1 xs0 x2 x5 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem accB1 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : ¬cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay1 (k0_pay11 x0 x1 xs1 x3 x6) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem accB2 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : ¬cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay2 (k0_pay8 x0) (k0_pay9 x1) xs2 x4 x7 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

/-! ## The first K-tile of a row block: each accumulator is zeroed, then gets the tile product added. -/

theorem accA0 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : cond0_0 i) (hc1 : ¬cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = k0_pay10 x0 x1 (k0_pay5 (F := F)) x2 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  rw [View.canon_cons_unit_zero (S := S128x2048) hz, View.readCov_unit_zero (S := S128x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem accA1 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : cond0_0 i) (hc1 : ¬cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = k0_pay1 (k0_pay11 x0 x1 (k0_pay6 (F := F)) x3 x6) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  rw [View.canon_cons_unit_zero (S := S128x2048) hz, View.readCov_unit_zero (S := S128x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem accA2 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : cond0_0 i) (hc1 : ¬cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = k0_pay2 (k0_pay8 x0) (k0_pay9 x1) (k0_pay7 (F := F)) x4 x7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  rw [View.canon_cons_unit_zero (S := S128x2048) hz, View.readCov_unit_zero (S := S128x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

/-! ## The last K-tile of a row block: the accumulators get the last tile product, and the two outputs are the
    cell's update of the finished accumulators, the biases and the old cell state. -/

theorem accC0 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay10 x0 x1 xs0 x2 x5 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  try sl_unfold_words
  rw [View.canon_unit_zero hz]
  simp only [View.readAt_eq_ld, View.readCov_unit_zero (S := S128x2048) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem accC1 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay1 (k0_pay11 x0 x1 xs1 x3 x6) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  try sl_unfold_words
  rw [View.canon_unit_zero hz]
  simp only [View.readAt_eq_ld, View.readCov_unit_zero (S := S128x2048) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem accC2 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay2 (k0_pay8 x0) (k0_pay9 x1) xs2 x4 x7 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  try sl_unfold_words
  rw [View.canon_unit_zero hz]
  simp only [View.readAt_eq_ld, View.readCov_unit_zero (S := S128x2048) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem cellC (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay3 (k0_pay10 x0 x1 xs0 x2 x5) x8 x11 (k0_pay1 (k0_pay11 x0 x1 xs1 x3 x6)) x9 x12 x14 := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  try sl_unfold_words
  rw [View.canon_unit_zero hz]
  simp only [View.readAt_eq_ld, View.readCov_unit_zero (S := S128x2048) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

theorem hiddenC (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .bf16) (x1 : Vec F S128x256 .bf16) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S128x2048 .f32) (xs0 : Vec F S128x2048 .f32) (xs1 : Vec F S128x2048 .f32) (xs2 : Vec F S128x2048 .f32) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay4 (k0_pay10 x0 x1 xs0 x2 x5) x8 x11 (k0_pay1 (k0_pay11 x0 x1 xs1 x3 x6)) x9 x12 (k0_pay2 (k0_pay8 x0) (k0_pay9 x1) xs2 x4 x7) x10 x13 x14 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  try sl_unfold_words
  rw [View.canon_unit_zero hz]
  simp only [View.readAt_eq_ld, View.readCov_unit_zero (S := S128x2048) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg19.read_unread, harg20.read_unread, harg21.read_unread, View.ld_unit_zero (S := S128x256) hz, View.ld_unit_zero (S := S2048x256) hz, View.ld_unit_zero (S := S128x2048) hz, View.ld_unit_zero (S := S1x2048) hz]

end Cert.KernelIdeal.Pieces
end
-- ==== Proof.KernelBlocks.lean ====
/-
  The kernel's windows, read at an index: which element of which argument array each entry of each block is.
-/
import proofs.«106272_j28020366639121_1_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx
import Idealize.ShloMosaic.Lib.ValueLayout
set_option maxRecDepth 16384

noncomputable section

open Idealize.ShloMosaic Idealize.ShloMosaic.TcCoe Idealize.SL.Sem

namespace Cert.KernelIdeal.Blocks
open Cert.KernelIdeal Cert.KernelIdeal.Gen Idealize.ShloMosaic.ValueIdx Idealize.ShloMosaic.StableHlo
variable (m : (ℓ : Loc nD τ sig) → Buf (Elt Ideal) ℓ)

/-! ## The arrays the region finds: over the extended reals a change of float format is the identity, so the
    bf16 copies of the activations and weights are the arguments themselves; a bias reshaped to one row is the bias. -/

theorem V_v0 (c : Dev nD) : (V m c main_v0 : S8192x2048.Idx → EReal) = m ((c : Thread nD τ).loc main_arg0) := by
  dsimp only [Gen.V, Gen.hostOps0]; after_results; rfl

theorem V_v1 (c : Dev nD) : (V m c main_v1 : S8192x2048.Idx → EReal) = m ((c : Thread nD τ).loc main_arg1) := by
  dsimp only [Gen.V, Gen.hostOps0]; after_results; rfl

theorem V_v2 (c : Dev nD) : (V m c main_v2 : S2048x2048.Idx → EReal) = m ((c : Thread nD τ).loc main_arg3) := by
  dsimp only [Gen.V, Gen.hostOps0]; after_results; rfl

theorem V_v3 (c : Dev nD) : (V m c main_v3 : S2048x2048.Idx → EReal) = m ((c : Thread nD τ).loc main_arg5) := by
  dsimp only [Gen.V, Gen.hostOps0]; after_results; rfl

theorem V_v4 (c : Dev nD) : (V m c main_v4 : S2048x2048.Idx → EReal) = m ((c : Thread nD τ).loc main_arg7) := by
  dsimp only [Gen.V, Gen.hostOps0]; after_results; rfl

theorem V_v5 (c : Dev nD) : (V m c main_v5 : S2048x2048.Idx → EReal) = m ((c : Thread nD τ).loc main_arg9) := by
  dsimp only [Gen.V, Gen.hostOps0]; after_results; rfl

theorem V_v6 (c : Dev nD) : (V m c main_v6 : S2048x2048.Idx → EReal) = m ((c : Thread nD τ).loc main_arg11) := by
  dsimp only [Gen.V, Gen.hostOps0]; after_results; rfl

theorem V_v7 (c : Dev nD) : (V m c main_v7 : S2048x2048.Idx → EReal) = m ((c : Thread nD τ).loc main_arg13) := by
  dsimp only [Gen.V, Gen.hostOps0]; after_results; rfl

theorem V_v8 (c : Dev nD) (n : Fin 2048) : (V m c main_v8 : S1x2048.Idx → EReal) (ix2 (0 : Fin 1) n) = (m ((c : Thread nD τ).loc main_arg4) : S2048.Idx → EReal) (ix1 n) := by
  have e : (V m c main_v8 : S1x2048.Idx → EReal) = shapeCast S1x2048 (m ((c : Thread nD τ).loc main_arg4) : S2048.Idx → EReal) shapeCasts_S2048_S1x2048 := by
    dsimp only [Gen.V, Gen.hostOps0]; after_results; rfl
  rw [e]
  exact shapeCast_a_1a_apply _ _ 0 n

theorem V_v9 (c : Dev nD) (n : Fin 2048) : (V m c main_v9 : S1x2048.Idx → EReal) (ix2 (0 : Fin 1) n) = (m ((c : Thread nD τ).loc main_arg6) : S2048.Idx → EReal) (ix1 n) := by
  have e : (V m c main_v9 : S1x2048.Idx → EReal) = shapeCast S1x2048 (m ((c : Thread nD τ).loc main_arg6) : S2048.Idx → EReal) shapeCasts_S2048_S1x2048 := by
    dsimp only [Gen.V, Gen.hostOps0]; after_results; rfl
  rw [e]
  exact shapeCast_a_1a_apply _ _ 0 n

theorem V_v10 (c : Dev nD) (n : Fin 2048) : (V m c main_v10 : S1x2048.Idx → EReal) (ix2 (0 : Fin 1) n) = (m ((c : Thread nD τ).loc main_arg8) : S2048.Idx → EReal) (ix1 n) := by
  have e : (V m c main_v10 : S1x2048.Idx → EReal) = shapeCast S1x2048 (m ((c : Thread nD τ).loc main_arg8) : S2048.Idx → EReal) shapeCasts_S2048_S1x2048 := by
    dsimp only [Gen.V, Gen.hostOps0]; after_results; rfl
  rw [e]
  exact shapeCast_a_1a_apply _ _ 0 n

theorem V_v11 (c : Dev nD) (n : Fin 2048) : (V m c main_v11 : S1x2048.Idx → EReal) (ix2 (0 : Fin 1) n) = (m ((c : Thread nD τ).loc main_arg10) : S2048.Idx → EReal) (ix1 n) := by
  have e : (V m c main_v11 : S1x2048.Idx → EReal) = shapeCast S1x2048 (m ((c : Thread nD τ).loc main_arg10) : S2048.Idx → EReal) shapeCasts_S2048_S1x2048 := by
    dsimp only [Gen.V, Gen.hostOps0]; after_results; rfl
  rw [e]
  exact shapeCast_a_1a_apply _ _ 0 n

theorem V_v12 (c : Dev nD) (n : Fin 2048) : (V m c main_v12 : S1x2048.Idx → EReal) (ix2 (0 : Fin 1) n) = (m ((c : Thread nD τ).loc main_arg12) : S2048.Idx → EReal) (ix1 n) := by
  have e : (V m c main_v12 : S1x2048.Idx → EReal) = shapeCast S1x2048 (m ((c : Thread nD τ).loc main_arg12) : S2048.Idx → EReal) shapeCasts_S2048_S1x2048 := by
    dsimp only [Gen.V, Gen.hostOps0]; after_results; rfl
  rw [e]
  exact shapeCast_a_1a_apply _ _ 0 n

theorem V_v13 (c : Dev nD) (n : Fin 2048) : (V m c main_v13 : S1x2048.Idx → EReal) (ix2 (0 : Fin 1) n) = (m ((c : Thread nD τ).loc main_arg14) : S2048.Idx → EReal) (ix1 n) := by
  have e : (V m c main_v13 : S1x2048.Idx → EReal) = shapeCast S1x2048 (m ((c : Thread nD τ).loc main_arg14) : S2048.Idx → EReal) shapeCasts_S2048_S1x2048 := by
    dsimp only [Gen.V, Gen.hostOps0]; after_results; rfl
  rw [e]
  exact shapeCast_a_1a_apply _ _ 0 n

/-! ## Where each window's block sits: at point t = 8·(row block) + (K-tile) the activations' block is
    (t / 8, t % 8), a weight's block is (0, t % 8), a bias's block is (0, 0), the cell state's block is (t / 8, 0). -/

theorem idx0 : ∀ t : Fin cfg0.N, win0_0.index t 0 = t.val / 8 ∧ win0_0.index t 1 = t.val % 8 :=
  (by decide +kernel : ∀ t : Fin grid0.N, _)

theorem idx1 : ∀ t : Fin cfg0.N, win0_1.index t 0 = t.val / 8 ∧ win0_1.index t 1 = t.val % 8 :=
  (by decide +kernel : ∀ t : Fin grid0.N, _)

theorem idx2 : ∀ t : Fin cfg0.N, win0_2.index t 0 = 0 ∧ win0_2.index t 1 = t.val % 8 :=
  (by decide +kernel : ∀ t : Fin grid0.N, _)

theorem idx3 : ∀ t : Fin cfg0.N, win0_3.index t 0 = 0 ∧ win0_3.index t 1 = t.val % 8 :=
  (by decide +kernel : ∀ t : Fin grid0.N, _)

theorem idx4 : ∀ t : Fin cfg0.N, win0_4.index t 0 = 0 ∧ win0_4.index t 1 = t.val % 8 :=
  (by decide +kernel : ∀ t : Fin grid0.N, _)

theorem idx5 : ∀ t : Fin cfg0.N, win0_5.index t 0 = 0 ∧ win0_5.index t 1 = t.val % 8 :=
  (by decide +kernel : ∀ t : Fin grid0.N, _)

theorem idx6 : ∀ t : Fin cfg0.N, win0_6.index t 0 = 0 ∧ win0_6.index t 1 = t.val % 8 :=
  (by decide +kernel : ∀ t : Fin grid0.N, _)

theorem idx7 : ∀ t : Fin cfg0.N, win0_7.index t 0 = 0 ∧ win0_7.index t 1 = t.val % 8 :=
  (by decide +kernel : ∀ t : Fin grid0.N, _)

theorem idx8 : ∀ t : Fin cfg0.N, win0_8.index t 0 = 0 ∧ win0_8.index t 1 = 0 :=
  (by decide +kernel : ∀ t : Fin grid0.N, _)

theorem idx9 : ∀ t : Fin cfg0.N, win0_9.index t 0 = 0 ∧ win0_9.index t 1 = 0 :=
  (by decide +kernel : ∀ t : Fin grid0.N, _)

theorem idx10 : ∀ t : Fin cfg0.N, win0_10.index t 0 = 0 ∧ win0_10.index t 1 = 0 :=
  (by decide +kernel : ∀ t : Fin grid0.N, _)

theorem idx11 : ∀ t : Fin cfg0.N, win0_11.index t 0 = 0 ∧ win0_11.index t 1 = 0 :=
  (by decide +kernel : ∀ t : Fin grid0.N, _)

theorem idx12 : ∀ t : Fin cfg0.N, win0_12.index t 0 = 0 ∧ win0_12.index t 1 = 0 :=
  (by decide +kernel : ∀ t : Fin grid0.N, _)

theorem idx13 : ∀ t : Fin cfg0.N, win0_13.index t 0 = 0 ∧ win0_13.index t 1 = 0 :=
  (by decide +kernel : ∀ t : Fin grid0.N, _)

theorem idx14 : ∀ t : Fin cfg0.N, win0_14.index t 0 = t.val / 8 ∧ win0_14.index t 1 = 0 :=
  (by decide +kernel : ∀ t : Fin grid0.N, _)

/-! ## The blocks read at an index -/

/-- The x block at point t holds rows 128·(t / 8) … and columns 256·(t % 8) … of x. -/
theorem blk0_apply (c : Dev nD) (t : Fin cfg0.N) (r : Fin 128) (k : Fin 256) (b : Fin 8192) (j : Fin 2048)
    (hb : b.val = 128 * (t.val / 8) + r.val) (hj : j.val = 256 * (t.val % 8) + k.val) :
    (iblk m c 0 t : Vec Ideal S128x256 .bf16) (ix2 r k) = (m ((c : Thread nD τ).loc main_arg0) : S8192x2048.Idx → EReal) (ix2 b j) := by
  unfold iblk
  rw [View.read_apply]
  show (V m c main_v0 : S8192x2048.Idx → EReal) _ = _
  rw [V_v0]
  congr 1
  funext a
  apply Fin.ext
  match a with
  | ⟨0, _⟩ => show win0_0.index t 0 * 128 + 1 * r.val = b.val; rw [(idx0 t).1, hb]; omega
  | ⟨1, _⟩ => show win0_0.index t 1 * 256 + 1 * k.val = j.val; rw [(idx0 t).2, hj]; omega

/-- The h block at point t holds rows 128·(t / 8) … and columns 256·(t % 8) … of h. -/
theorem blk1_apply (c : Dev nD) (t : Fin cfg0.N) (r : Fin 128) (k : Fin 256) (b : Fin 8192) (j : Fin 2048)
    (hb : b.val = 128 * (t.val / 8) + r.val) (hj : j.val = 256 * (t.val % 8) + k.val) :
    (iblk m c 1 t : Vec Ideal S128x256 .bf16) (ix2 r k) = (m ((c : Thread nD τ).loc main_arg1) : S8192x2048.Idx → EReal) (ix2 b j) := by
  unfold iblk
  rw [View.read_apply]
  show (V m c main_v1 : S8192x2048.Idx → EReal) _ = _
  rw [V_v1]
  congr 1
  funext a
  apply Fin.ext
  match a with
  | ⟨0, _⟩ => show win0_1.index t 0 * 128 + 1 * r.val = b.val; rw [(idx1 t).1, hb]; omega
  | ⟨1, _⟩ => show win0_1.index t 1 * 256 + 1 * k.val = j.val; rw [(idx1 t).2, hj]; omega

/-- The Wix block at point t holds all rows and columns 256·(t % 8) … of Wix. -/
theorem blk2_apply (c : Dev nD) (t : Fin cfg0.N) (n : Fin 2048) (k : Fin 256) (j : Fin 2048)
    (hj : j.val = 256 * (t.val % 8) + k.val) :
    (iblk m c 2 t : Vec Ideal S2048x256 .bf16) (ix2 n k) = (m ((c : Thread nD τ).loc main_arg3) : S2048x2048.Idx → EReal) (ix2 n j) := by
  unfold iblk
  rw [View.read_apply]
  show (V m c main_v2 : S2048x2048.Idx → EReal) _ = _
  rw [V_v2]
  congr 1
  funext a
  apply Fin.ext
  match a with
  | ⟨0, _⟩ => show win0_2.index t 0 * 2048 + 1 * n.val = n.val; rw [(idx2 t).1]; omega
  | ⟨1, _⟩ => show win0_2.index t 1 * 256 + 1 * k.val = j.val; rw [(idx2 t).2, hj]; omega

/-- The Wmx block at point t holds all rows and columns 256·(t % 8) … of Wmx. -/
theorem blk3_apply (c : Dev nD) (t : Fin cfg0.N) (n : Fin 2048) (k : Fin 256) (j : Fin 2048)
    (hj : j.val = 256 * (t.val % 8) + k.val) :
    (iblk m c 3 t : Vec Ideal S2048x256 .bf16) (ix2 n k) = (m ((c : Thread nD τ).loc main_arg5) : S2048x2048.Idx → EReal) (ix2 n j) := by
  unfold iblk
  rw [View.read_apply]
  show (V m c main_v3 : S2048x2048.Idx → EReal) _ = _
  rw [V_v3]
  congr 1
  funext a
  apply Fin.ext
  match a with
  | ⟨0, _⟩ => show win0_3.index t 0 * 2048 + 1 * n.val = n.val; rw [(idx3 t).1]; omega
  | ⟨1, _⟩ => show win0_3.index t 1 * 256 + 1 * k.val = j.val; rw [(idx3 t).2, hj]; omega

/-- The Wox block at point t holds all rows and columns 256·(t % 8) … of Wox. -/
theorem blk4_apply (c : Dev nD) (t : Fin cfg0.N) (n : Fin 2048) (k : Fin 256) (j : Fin 2048)
    (hj : j.val = 256 * (t.val % 8) + k.val) :
    (iblk m c 4 t : Vec Ideal S2048x256 .bf16) (ix2 n k) = (m ((c : Thread nD τ).loc main_arg7) : S2048x2048.Idx → EReal) (ix2 n j) := by
  unfold iblk
  rw [View.read_apply]
  show (V m c main_v4 : S2048x2048.Idx → EReal) _ = _
  rw [V_v4]
  congr 1
  funext a
  apply Fin.ext
  match a with
  | ⟨0, _⟩ => show win0_4.index t 0 * 2048 + 1 * n.val = n.val; rw [(idx4 t).1]; omega
  | ⟨1, _⟩ => show win0_4.index t 1 * 256 + 1 * k.val = j.val; rw [(idx4 t).2, hj]; omega

/-- The Wih block at point t holds all rows and columns 256·(t % 8) … of Wih. -/
theorem blk5_apply (c : Dev nD) (t : Fin cfg0.N) (n : Fin 2048) (k : Fin 256) (j : Fin 2048)
    (hj : j.val = 256 * (t.val % 8) + k.val) :
    (iblk m c 5 t : Vec Ideal S2048x256 .bf16) (ix2 n k) = (m ((c : Thread nD τ).loc main_arg9) : S2048x2048.Idx → EReal) (ix2 n j) := by
  unfold iblk
  rw [View.read_apply]
  show (V m c main_v5 : S2048x2048.Idx → EReal) _ = _
  rw [V_v5]
  congr 1
  funext a
  apply Fin.ext
  match a with
  | ⟨0, _⟩ => show win0_5.index t 0 * 2048 + 1 * n.val = n.val; rw [(idx5 t).1]; omega
  | ⟨1, _⟩ => show win0_5.index t 1 * 256 + 1 * k.val = j.val; rw [(idx5 t).2, hj]; omega

/-- The Wmh block at point t holds all rows and columns 256·(t % 8) … of Wmh. -/
theorem blk6_apply (c : Dev nD) (t : Fin cfg0.N) (n : Fin 2048) (k : Fin 256) (j : Fin 2048)
    (hj : j.val = 256 * (t.val % 8) + k.val) :
    (iblk m c 6 t : Vec Ideal S2048x256 .bf16) (ix2 n k) = (m ((c : Thread nD τ).loc main_arg11) : S2048x2048.Idx → EReal) (ix2 n j) := by
  unfold iblk
  rw [View.read_apply]
  show (V m c main_v6 : S2048x2048.Idx → EReal) _ = _
  rw [V_v6]
  congr 1
  funext a
  apply Fin.ext
  match a with
  | ⟨0, _⟩ => show win0_6.index t 0 * 2048 + 1 * n.val = n.val; rw [(idx6 t).1]; omega
  | ⟨1, _⟩ => show win0_6.index t 1 * 256 + 1 * k.val = j.val; rw [(idx6 t).2, hj]; omega

/-- The Woh block at point t holds all rows and columns 256·(t % 8) … of Woh. -/
theorem blk7_apply (c : Dev nD) (t : Fin cfg0.N) (n : Fin 2048) (k : Fin 256) (j : Fin 2048)
    (hj : j.val = 256 * (t.val % 8) + k.val) :
    (iblk m c 7 t : Vec Ideal S2048x256 .bf16) (ix2 n k) = (m ((c : Thread nD τ).loc main_arg13) : S2048x2048.Idx → EReal) (ix2 n j) := by
  unfold iblk
  rw [View.read_apply]
  show (V m c main_v7 : S2048x2048.Idx → EReal) _ = _
  rw [V_v7]
  congr 1
  funext a
  apply Fin.ext
  match a with
  | ⟨0, _⟩ => show win0_7.index t 0 * 2048 + 1 * n.val = n.val; rw [(idx7 t).1]; omega
  | ⟨1, _⟩ => show win0_7.index t 1 * 256 + 1 * k.val = j.val; rw [(idx7 t).2, hj]; omega

/-- The bix block at any point is the bias as one row. -/
theorem blk8_apply (c : Dev nD) (t : Fin cfg0.N) (n : Fin 2048) :
    (iblk m c 8 t : Vec Ideal S1x2048 .f32) (ix2 (0 : Fin 1) n) = (m ((c : Thread nD τ).loc main_arg4) : S2048.Idx → EReal) (ix1 n) := by
  unfold iblk
  rw [View.read_apply]
  show (V m c main_v8 : S1x2048.Idx → EReal) _ = _
  refine Eq.trans (congrArg _ ?_) (V_v8 m c n)
  funext a
  apply Fin.ext
  match a with
  | ⟨0, _⟩ => show win0_8.index t 0 * 1 + 1 * 0 = 0; rw [(idx8 t).1]
  | ⟨1, _⟩ => show win0_8.index t 1 * 2048 + 1 * n.val = n.val; rw [(idx8 t).2]; omega

/-- The bmx block at any point is the bias as one row. -/
theorem blk9_apply (c : Dev nD) (t : Fin cfg0.N) (n : Fin 2048) :
    (iblk m c 9 t : Vec Ideal S1x2048 .f32) (ix2 (0 : Fin 1) n) = (m ((c : Thread nD τ).loc main_arg6) : S2048.Idx → EReal) (ix1 n) := by
  unfold iblk
  rw [View.read_apply]
  show (V m c main_v9 : S1x2048.Idx → EReal) _ = _
  refine Eq.trans (congrArg _ ?_) (V_v9 m c n)
  funext a
  apply Fin.ext
  match a with
  | ⟨0, _⟩ => show win0_9.index t 0 * 1 + 1 * 0 = 0; rw [(idx9 t).1]
  | ⟨1, _⟩ => show win0_9.index t 1 * 2048 + 1 * n.val = n.val; rw [(idx9 t).2]; omega

/-- The box block at any point is the bias as one row. -/
theorem blk10_apply (c : Dev nD) (t : Fin cfg0.N) (n : Fin 2048) :
    (iblk m c 10 t : Vec Ideal S1x2048 .f32) (ix2 (0 : Fin 1) n) = (m ((c : Thread nD τ).loc main_arg8) : S2048.Idx → EReal) (ix1 n) := by
  unfold iblk
  rw [View.read_apply]
  show (V m c main_v10 : S1x2048.Idx → EReal) _ = _
  refine Eq.trans (congrArg _ ?_) (V_v10 m c n)
  funext a
  apply Fin.ext
  match a with
  | ⟨0, _⟩ => show win0_10.index t 0 * 1 + 1 * 0 = 0; rw [(idx10 t).1]
  | ⟨1, _⟩ => show win0_10.index t 1 * 2048 + 1 * n.val = n.val; rw [(idx10 t).2]; omega

/-- The bih block at any point is the bias as one row. -/
theorem blk11_apply (c : Dev nD) (t : Fin cfg0.N) (n : Fin 2048) :
    (iblk m c 11 t : Vec Ideal S1x2048 .f32) (ix2 (0 : Fin 1) n) = (m ((c : Thread nD τ).loc main_arg10) : S2048.Idx → EReal) (ix1 n) := by
  unfold iblk
  rw [View.read_apply]
  show (V m c main_v11 : S1x2048.Idx → EReal) _ = _
  refine Eq.trans (congrArg _ ?_) (V_v11 m c n)
  funext a
  apply Fin.ext
  match a with
  | ⟨0, _⟩ => show win0_11.index t 0 * 1 + 1 * 0 = 0; rw [(idx11 t).1]
  | ⟨1, _⟩ => show win0_11.index t 1 * 2048 + 1 * n.val = n.val; rw [(idx11 t).2]; omega

/-- The bmh block at any point is the bias as one row. -/
theorem blk12_apply (c : Dev nD) (t : Fin cfg0.N) (n : Fin 2048) :
    (iblk m c 12 t : Vec Ideal S1x2048 .f32) (ix2 (0 : Fin 1) n) = (m ((c : Thread nD τ).loc main_arg12) : S2048.Idx → EReal) (ix1 n) := by
  unfold iblk
  rw [View.read_apply]
  show (V m c main_v12 : S1x2048.Idx → EReal) _ = _
  refine Eq.trans (congrArg _ ?_) (V_v12 m c n)
  funext a
  apply Fin.ext
  match a with
  | ⟨0, _⟩ => show win0_12.index t 0 * 1 + 1 * 0 = 0; rw [(idx12 t).1]
  | ⟨1, _⟩ => show win0_12.index t 1 * 2048 + 1 * n.val = n.val; rw [(idx12 t).2]; omega

/-- The boh block at any point is the bias as one row. -/
theorem blk13_apply (c : Dev nD) (t : Fin cfg0.N) (n : Fin 2048) :
    (iblk m c 13 t : Vec Ideal S1x2048 .f32) (ix2 (0 : Fin 1) n) = (m ((c : Thread nD τ).loc main_arg14) : S2048.Idx → EReal) (ix1 n) := by
  unfold iblk
  rw [View.read_apply]
  show (V m c main_v13 : S1x2048.Idx → EReal) _ = _
  refine Eq.trans (congrArg _ ?_) (V_v13 m c n)
  funext a
  apply Fin.ext
  match a with
  | ⟨0, _⟩ => show win0_13.index t 0 * 1 + 1 * 0 = 0; rw [(idx13 t).1]
  | ⟨1, _⟩ => show win0_13.index t 1 * 2048 + 1 * n.val = n.val; rw [(idx13 t).2]; omega

/-- The cell state's block at point t holds rows 128·(t / 8) … and all columns of c. -/
theorem blk14_apply (c : Dev nD) (t : Fin cfg0.N) (r : Fin 128) (n : Fin 2048) (b : Fin 8192)
    (hb : b.val = 128 * (t.val / 8) + r.val) :
    (iblk m c 14 t : Vec Ideal S128x2048 .f32) (ix2 r n) = (m ((c : Thread nD τ).loc main_arg2) : S8192x2048.Idx → EReal) (ix2 b n) := by
  unfold iblk
  rw [View.read_apply]
  show (V m c main_arg2 : S8192x2048.Idx → EReal) _ = _
  rw [V_main_arg2]
  congr 1
  funext a
  apply Fin.ext
  match a with
  | ⟨0, _⟩ => show win0_14.index t 0 * 128 + 1 * r.val = b.val; rw [(idx14 t).1, hb]; omega
  | ⟨1, _⟩ => show win0_14.index t 1 * 2048 + 1 * n.val = n.val; rw [(idx14 t).2]; omega

end Cert.KernelIdeal.Blocks
end
-- ==== Proof.GateAlgebra.lean ====
/-
  The algebra that joins the two sides of an LSTM cell's gate pre-activation, over a commutative additive monoid
  (the extended reals in use).

  A tiled kernel computes a gate's pre-activation as
      ((0 + sum over the K-tiles of (x-part of the tile + h-part of the tile)) + bias_x) + bias_h
  where each part is a sum over the columns of the tile, while the plain formula is
      ((sum over all columns of the x-terms + bias_x) + sum over all columns of the h-terms) + bias_h.
  Both are the same element: only commutativity and associativity of addition are used, so nothing here asks the
  terms to be finite.
-/
import Mathlib.Algebra.BigOperators.Fin
import Mathlib.Algebra.BigOperators.Group.Finset.Basic
import Mathlib.Logic.Equiv.Fin.Basic

open scoped BigOperators

namespace Cert.GateAlgebra

/-- A sum over `nb * bs` consecutive places, cut into `nb` blocks of `bs`: the term of block `t` at place `r`
    is the one at `bs * t + r`. -/
theorem sum_tiles {M : Type*} [AddCommMonoid M] {nb bs N : Nat} (hN : nb * bs = N) (g : Fin N → M)
    (at_ : Fin nb → Fin bs → Fin N) (hat : ∀ t r, (at_ t r).val = bs * t.val + r.val) :
    ∑ t : Fin nb, ∑ r : Fin bs, g (at_ t r) = ∑ i : Fin N, g i := by
  subst hN
  have e : ∀ p : Fin nb × Fin bs, at_ p.1 p.2 = finProdFinEquiv p := fun p => by
    apply Fin.ext
    rw [hat, finProdFinEquiv_apply_val, Nat.add_comm]
  calc ∑ t : Fin nb, ∑ r : Fin bs, g (at_ t r)
      = ∑ p : Fin nb × Fin bs, g (at_ p.1 p.2) := (Fintype.sum_prod_type (fun p : Fin nb × Fin bs => g (at_ p.1 p.2))).symm
    _ = ∑ p : Fin nb × Fin bs, g (finProdFinEquiv p) := Finset.sum_congr rfl fun p _ => by rw [e p]
    _ = ∑ i : Fin (nb * bs), g i := Equiv.sum_comp finProdFinEquiv g

/-- A sum over the first `n` naturals of a function that is, below `n`, a function on `Fin n`. -/
theorem sum_range_eq_sum_fin {M : Type*} [AddCommMonoid M] (n : Nat) (f : ℕ → M) (g : Fin n → M)
    (h : ∀ t : Fin n, f t.val = g t) : ∑ s ∈ Finset.range n, f s = ∑ t : Fin n, g t := by
  rw [← Fin.sum_univ_eq_sum_range f n]
  exact Finset.sum_congr rfl fun t _ => h t

/-- The gate's pre-activation, tiled against plain: the tiles' sums of an x-part and an h-part from zero, then the two
    biases, are the x-sum plus its bias plus the h-sum plus its bias. -/
theorem gate_eq {M : Type*} [AddCommMonoid M] {ι : Type*} (s : Finset ι) (X H : ι → M) (SX SH bx bh : M)
    (hX : ∑ t ∈ s, X t = SX) (hH : ∑ t ∈ s, H t = SH) :
    ((0 + ∑ t ∈ s, (X t + H t)) + bx) + bh = ((SX + bx) + SH) + bh := by
  rw [Finset.sum_add_distrib, hX, hH, zero_add, add_right_comm SX SH bx]

end Cert.GateAlgebra
-- ==== Proof.TiledGate.lean ====
/-
  A gate's pre-activation assembled from K-tiles.

  If, for a batch row b and a unit n, the eight K-tiles of a row block contribute
      M s = (∑ k < 256, x[b, 256 s + k] · W[n, 256 s + k]) + (∑ k < 256, h[b, 256 s + k] · U[n, 256 s + k]),
  then zero plus their sum plus the two biases is the pre-activation of CellSpec: the eight tile sums of 256 terms are
  one sum of 2048 terms, and the additions re-associate and commute.
-/
import proofs.«106272_j28020366639121_1_alg».proof.Proof.CellSpec
import proofs.«106272_j28020366639121_1_alg».proof.Proof.GateAlgebra

noncomputable section

open scoped BigOperators

namespace Cert.TiledGate

open Idealize.ShloMosaic Idealize.ShloMosaic.ValueIdx Cert.CellSpec

/-- Column k of K-tile s. -/
def col (s : Fin 8) (k : Fin 256) : Fin 2048 := ⟨256 * s.val + k.val, by have := s.isLt; have := k.isLt; omega⟩

theorem col_val (s : Fin 8) (k : Fin 256) : (col s k).val = 256 * s.val + k.val := rfl

/-- The eight tile sums of a row of products are the row's whole sum. -/
theorem sum_cols (f : Fin 2048 → EReal) : ∑ s : Fin 8, ∑ k : Fin 256, f (col s k) = ∑ j : Fin 2048, f j :=
  Cert.GateAlgebra.sum_tiles (nb := 8) (bs := 256) (N := 2048) rfl f col col_val

theorem pre_of_tile_sums (x h : FVec Ideal SAct .f32) (W U : FVec Ideal SW .f32) (bx bh : FVec Ideal SB .f32)
    (b : Fin 8192) (n : Fin 2048) (q : ℕ) (M : ℕ → EReal)
    (hM : ∀ s : Fin 8, M (8 * q + s.val)
      = (∑ k : Fin 256, x (ix2 b (col s k)) * W (ix2 n (col s k))) + ∑ k : Fin 256, h (ix2 b (col s k)) * U (ix2 n (col s k))) :
    ((0 + ∑ s ∈ Finset.range 8, M (8 * q + s)) + bx (ix1 n)) + bh (ix1 n) = pre x h W U bx bh b n := by
  have e : ∑ s ∈ Finset.range 8, M (8 * q + s)
      = ∑ s ∈ Finset.range 8, ((fun s : ℕ => if hs : s < 8 then ∑ k : Fin 256, x (ix2 b (col ⟨s, hs⟩ k)) * W (ix2 n (col ⟨s, hs⟩ k)) else 0) s
          + (fun s : ℕ => if hs : s < 8 then ∑ k : Fin 256, h (ix2 b (col ⟨s, hs⟩ k)) * U (ix2 n (col ⟨s, hs⟩ k)) else 0) s) :=
    Finset.sum_congr rfl fun s hs => by
      have hs8 : s < 8 := Finset.mem_range.1 hs
      dsimp only
      rw [dif_pos hs8, dif_pos hs8]
      exact hM ⟨s, hs8⟩
  rw [e]
  unfold pre
  refine Cert.GateAlgebra.gate_eq (Finset.range 8) _ _ _ _ _ _ ?_ ?_
  · rw [Cert.GateAlgebra.sum_range_eq_sum_fin 8 _ (fun s : Fin 8 => ∑ k : Fin 256, x (ix2 b (col s k)) * W (ix2 n (col s k)))
      (fun s => by rw [dif_pos s.isLt])]
    exact sum_cols fun j => x (ix2 b j) * W (ix2 n j)
  · rw [Cert.GateAlgebra.sum_range_eq_sum_fin 8 _ (fun s : Fin 8 => ∑ k : Fin 256, h (ix2 b (col s k)) * U (ix2 n (col s k)))
      (fun s => by rw [dif_pos s.isLt])]
    exact sum_cols fun j => h (ix2 b j) * U (ix2 n j)

end Cert.TiledGate

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.KernelAcc.lean ====
/-
  The three accumulators, read as sums.

  Each accumulator's contents after a point are the fold of a reset-and-add update along the row block's K-tiles. At
  an index the fold is zero plus the sum of the tiles so far; each tile at an index is two sums of 256 products of
  entries of the argument arrays; after the last K-tile the eight tiles' sums are the whole rows' sums, so the
  accumulator plus the two biases is the gate's pre-activation.
-/
import proofs.«106272_j28020366639121_1_alg».proof.Proof.Gen.KernelIdeal.Value
import proofs.«106272_j28020366639121_1_alg».proof.Proof.KernelPieces
import proofs.«106272_j28020366639121_1_alg».proof.Proof.KernelBlocks
import proofs.«106272_j28020366639121_1_alg».proof.Proof.TiledGate
import proofs.«106272_j28020366639121_1_alg».proof.Proof.LibDotReadRhsT
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem

namespace Cert.KernelIdeal.Acc
open Cert.KernelIdeal Cert.KernelIdeal.Gen Cert.KernelIdeal.Value Cert.KernelIdeal.Pieces Idealize.ShloMosaic.ValueIdx

section Generic
variable {F : FTy → Type} [FloatOps F]

/-- One K-tile's contribution to a gate: the x-block times the gate's x-weight block plus the h-block times its
    h-weight block, each contracted along the tile's 256 columns. -/
def tile (x h : Vec F S128x256 .bf16) (w u : Vec F S2048x256 .bf16) : FVec F S128x2048 .f32 :=
  addf (matmul dot_S128x256_S2048x256_S128x2048_1_1_0_0_n_n none x w (constant S128x2048 .f32 0x00000000#32))
    (matmul dot_S128x256_S2048x256_S128x2048_1_1_0_0_n_n none h u (constant S128x2048 .f32 0x00000000#32))

/-- The three accumulators' updates are all "what it held plus the gate's tile". -/
theorem pay10_eq (x h : Vec F S128x256 .bf16) (acc : Vec F S128x2048 .f32) (w u : Vec F S2048x256 .bf16) :
    k0_pay10 x h acc w u = addf acc (tile x h w u) := by
  unfold k0_pay10 k0_pay8 k0_pay9 tile
  simp only [shapeCast_self]

theorem pay11_eq (x h : Vec F S128x256 .bf16) (acc : Vec F S128x2048 .f32) (w u : Vec F S2048x256 .bf16) :
    k0_pay1 (k0_pay11 x h acc w u) = addf acc (tile x h w u) := by
  unfold k0_pay1 k0_pay11 k0_pay8 k0_pay9 tile
  simp only [shapeCast_self]

theorem pay2_eq (x h : Vec F S128x256 .bf16) (acc : Vec F S128x2048 .f32) (w u : Vec F S2048x256 .bf16) :
    k0_pay2 (k0_pay8 x) (k0_pay9 h) acc w u = addf acc (tile x h w u) := by
  unfold k0_pay2 k0_pay8 k0_pay9 tile
  simp only [shapeCast_self]

end Generic

/-- A tile at an index, over the extended reals: two sums of 256 products. -/
theorem tile_apply (x h : FVec Ideal S128x256 .bf16) (w u : FVec Ideal S2048x256 .bf16) (r : Fin 128) (n : Fin 2048) :
    (tile (F := Ideal) x h w u (ix2 r n) : EReal)
      = (∑ k : Fin 256, (x (ix2 r k) : EReal) * w (ix2 n k)) + ∑ k : Fin 256, (h (ix2 r k) : EReal) * u (ix2 n k) := by
  unfold tile
  rw [addf_apply]
  simp only [matmul]
  rw [Ideal.matmul_constant_zero_apply, Ideal.matmul_constant_zero_apply]
  exact congrArg₂ (· + ·)
    (Cert.DotReadRhsT.sum_contr_rhsT dot_S128x256_S2048x256_S128x2048_1_1_0_0_n_n_wf x w r n)
    (Cert.DotReadRhsT.sum_contr_rhsT dot_S128x256_S2048x256_S128x2048_1_1_0_0_n_n_wf h u r n)

/-- The zero blocks the first K-tile stores are zero. -/
theorem pay5_apply (i : S128x2048.Idx) : k0_pay5 (F := Ideal) i = (0 : EReal) := by
  unfold k0_pay5; simp only [shapeCast_self]; exact Ideal.ofBits_zero_f32
theorem pay6_apply (i : S128x2048.Idx) : k0_pay6 (F := Ideal) i = (0 : EReal) := by
  unfold k0_pay6; simp only [shapeCast_self]; exact Ideal.ofBits_zero_f32
theorem pay7_apply (i : S128x2048.Idx) : k0_pay7 (F := Ideal) i = (0 : EReal) := by
  unfold k0_pay7; simp only [shapeCast_self]; exact Ideal.ofBits_zero_f32

/-- AN ACCUMULATOR'S FOLD AT AN INDEX. A point-indexed update that, at the first K-tile of a row block, stores a
    zero block plus that point's tile and, at every other K-tile, adds the point's tile to what it held, leaves after
    point t zero plus the sum of the tiles of the row block's points up to t. -/
theorem fold_apply (sc : (n : ℕ) → n < cfg0.N → Vec Ideal S128x2048 .f32 → Vec Ideal S128x2048 .f32)
    (junk : Vec Ideal S128x2048 .f32) (T : (n : ℕ) → n < cfg0.N → FVec Ideal S128x2048 .f32)
    (z : FVec Ideal S128x2048 .f32) (hz : ∀ i, z i = (0 : EReal))
    (hreset : ∀ (n : ℕ) (h : n < cfg0.N), n % 8 = 0 → ∀ acc, sc n h acc = addf z (T n h))
    (hstep : ∀ (n : ℕ) (h : n < cfg0.N), ¬n % 8 = 0 → ∀ acc, sc n h acc = addf acc (T n h))
    (t : ℕ) (h' : 8 * (t / 8) + t % 8 < cfg0.N) (i : S128x2048.Idx) :
    Pipeline.accAt (fun n h => sc n h junk) sc (8 * (t / 8)) (t % 8) h' i
      = 0 + ∑ s ∈ Finset.range (t % 8 + 1), (fun (n : ℕ) (i : S128x2048.Idx) => if h : n < cfg0.N then (T n h i : EReal) else 0) (8 * (t / 8) + s) i := by
  refine Pipeline.accAt_add_apply (fun n h => sc n h junk) sc (fun _ => (0 : EReal))
    (fun (n : ℕ) (i : S128x2048.Idx) => if h : n < cfg0.N then (T n h i : EReal) else 0) (8 * (t / 8)) 7 ?_ ?_ (t % 8) (by omega) h' i
  · intro h i
    show sc (8 * (t / 8)) h junk i = 0 + (if h : 8 * (t / 8) < cfg0.N then (T (8 * (t / 8)) h i : EReal) else 0)
    rw [hreset _ h (Nat.mul_mod_right 8 _), dif_pos h]
    show (z i : EReal) + T (8 * (t / 8)) h i = _
    rw [hz]
  · intro n h acc i h1 h2
    show sc n h acc i = acc i + (if h : n < cfg0.N then (T n h i : EReal) else 0)
    rw [hstep n h (by omega), dif_pos h]
    rfl

open Cert.TiledGate Cert.CellSpec in
/-- A tile whose blocks read the arrays at the tile's rows and columns, at an index. -/
theorem tile_apply_arrays (xb hb : FVec Ideal S128x256 .bf16) (wb ub : FVec Ideal S2048x256 .bf16)
    (x h : FVec Ideal SAct .f32) (W U : FVec Ideal SW .f32) (r : Fin 128) (u : Fin 2048) (b : Fin 8192) (s : Fin 8)
    (hx : ∀ k : Fin 256, xb (ix2 r k) = x (ix2 b (col s k))) (hh : ∀ k : Fin 256, hb (ix2 r k) = h (ix2 b (col s k)))
    (hw : ∀ k : Fin 256, wb (ix2 u k) = W (ix2 u (col s k))) (hu : ∀ k : Fin 256, ub (ix2 u k) = U (ix2 u (col s k))) :
    (tile (F := Ideal) xb hb wb ub (ix2 r u) : EReal)
      = (∑ k : Fin 256, x (ix2 b (col s k)) * W (ix2 u (col s k))) + ∑ k : Fin 256, h (ix2 b (col s k)) * U (ix2 u (col s k)) := by
  rw [tile_apply]
  exact congrArg₂ (· + ·) (Finset.sum_congr rfl fun k _ => by rw [hx k, hw k]) (Finset.sum_congr rfl fun k _ => by rw [hh k, hu k])

open Cert.TiledGate Cert.CellSpec in
/-- The fold of an accumulator after the last K-tile of a row block, plus the gate's two biases, is the gate's
    pre-activation, when each point's tile reads the arrays at its rows and columns. -/
theorem pre_of_fold (sc : (n : ℕ) → n < cfg0.N → Vec Ideal S128x2048 .f32 → Vec Ideal S128x2048 .f32)
    (junk : Vec Ideal S128x2048 .f32) (T : (n : ℕ) → n < cfg0.N → FVec Ideal S128x2048 .f32)
    (z : FVec Ideal S128x2048 .f32) (hz : ∀ i, z i = (0 : EReal))
    (hreset : ∀ (n : ℕ) (h : n < cfg0.N), n % 8 = 0 → ∀ acc, sc n h acc = addf z (T n h))
    (hstep : ∀ (n : ℕ) (h : n < cfg0.N), ¬n % 8 = 0 → ∀ acc, sc n h acc = addf acc (T n h))
    (t : ℕ) (h7 : t % 8 = 7) (h' : 8 * (t / 8) + t % 8 < cfg0.N)
    (x h : FVec Ideal SAct .f32) (W U : FVec Ideal SW .f32) (bx bh : FVec Ideal SB .f32)
    (r : Fin 128) (u : Fin 2048) (b : Fin 8192) (hb : b.val = 128 * (t / 8) + r.val)
    (hT : ∀ (n : ℕ) (hn : n < cfg0.N) (s : Fin 8), n = 8 * (t / 8) + s.val →
      T n hn (ix2 r u) = (∑ k : Fin 256, x (ix2 b (col s k)) * W (ix2 u (col s k))) + ∑ k : Fin 256, h (ix2 b (col s k)) * U (ix2 u (col s k))) :
    ((Pipeline.accAt (fun n h => sc n h junk) sc (8 * (t / 8)) (t % 8) h' (ix2 r u) : EReal) + bx (ix1 u)) + bh (ix1 u)
      = pre x h W U bx bh b u := by
  rw [fold_apply sc junk T z hz hreset hstep t h' (ix2 r u), show t % 8 + 1 = 8 by omega]
  show ((0 + ∑ s ∈ Finset.range 8, (fun n : ℕ => if h : n < cfg0.N then (T n h (ix2 r u) : EReal) else 0) (8 * (t / 8) + s))
      + bx (ix1 u)) + bh (ix1 u) = _
  refine pre_of_tile_sums x h W U bx bh b u (t / 8) (fun n : ℕ => if h : n < cfg0.N then (T n h (ix2 r u) : EReal) else 0) (fun s => ?_)
  have hN : cfg0.N = 512 := N_0
  have hlt : 8 * (t / 8) + s.val < cfg0.N := by have := s.isLt; omega
  show (if h : 8 * (t / 8) + s.val < cfg0.N then (T (8 * (t / 8) + s.val) h (ix2 r u) : EReal) else 0) = _
  rw [dif_pos hlt]
  exact hT _ hlt s rfl

variable (m : (ℓ : Loc nD τ sig) → Buf (Elt Ideal) ℓ)

open Cert.KernelIdeal.Blocks Cert.TiledGate

/-! ## The input gate -/

/-- The input gate's tile at point n. -/
abbrev tileI (c : Dev nD) (n : ℕ) (h : n < cfg0.N) : FVec Ideal S128x2048 .f32 :=
  tile (iblk m c 0 ⟨n, h⟩) (iblk m c 1 ⟨n, h⟩) (iblk m c 2 ⟨n, h⟩) (iblk m c 5 ⟨n, h⟩)

theorem sc0_step (c : Dev nD) (n : ℕ) (h : n < cfg0.N) (h0 : ¬n % 8 = 0) (acc : Vec Ideal S128x2048 .f32) :
    scAt0_0 m c n h acc = addf acc (tileI m c n h) := by
  unfold scAt0_0
  rw [dif_neg h0]
  by_cases h1 : n % 8 = 7
  · rw [dif_pos h1, accC0, pay10_eq]
  · rw [dif_neg h1, accB0, pay10_eq]

theorem sc0_reset (c : Dev nD) (n : ℕ) (h : n < cfg0.N) (h0 : n % 8 = 0) (acc : Vec Ideal S128x2048 .f32) :
    scAt0_0 m c n h acc = addf (k0_pay5 (F := Ideal)) (tileI m c n h) := by
  unfold scAt0_0
  have h1 : ¬n % 8 = 7 := by omega
  rw [dif_pos h0, dif_neg h1, accA0, pay10_eq]

/-- After the last K-tile of a row block, the input gate's accumulator plus its two biases is the gate's
    pre-activation at the row block's rows. -/
theorem preI (c : Dev nD) (t : Fin cfg0.N) (h7 : t.val % 8 = 7) (r : Fin 128) (u : Fin 2048) (b : Fin 8192)
    (hb : b.val = 128 * (t.val / 8) + r.val) :
    (((outsAt0 m c t.val t.isLt).2.2.1 (ix2 r u) : EReal) + (m ((c : Thread nD τ).loc main_arg4) : S2048.Idx → EReal) (ix1 u)) + (m ((c : Thread nD τ).loc main_arg10) : S2048.Idx → EReal) (ix1 u)
      = Cert.CellSpec.pre (m ((c : Thread nD τ).loc main_arg0) : S8192x2048.Idx → EReal) (m ((c : Thread nD τ).loc main_arg1) : S8192x2048.Idx → EReal) (m ((c : Thread nD τ).loc main_arg3) : S2048x2048.Idx → EReal) (m ((c : Thread nD τ).loc main_arg9) : S2048x2048.Idx → EReal) (m ((c : Thread nD τ).loc main_arg4) : S2048.Idx → EReal) (m ((c : Thread nD τ).loc main_arg10) : S2048.Idx → EReal) b u := by
  rw [soutsAt0_0_eq m c t]
  refine pre_of_fold (scAt0_0 m c) _ (tileI m c) (k0_pay5 (F := Ideal)) pay5_apply (sc0_reset m c) (sc0_step m c)
    t.val h7 _ _ _ _ _ _ _ r u b hb (fun n hn s hs => ?_)
  have hq : n / 8 = t.val / 8 := by omega
  have hr : n % 8 = s.val := by omega
  exact tile_apply_arrays _ _ _ _ _ _ _ _ r u b s
    (fun k => blk0_apply m c ⟨n, hn⟩ r k b (col s k) (by rw [hb]; show _ = 128 * (n / 8) + r.val; rw [hq]) (by rw [col_val]; show _ = 256 * (n % 8) + k.val; rw [hr]))
    (fun k => blk1_apply m c ⟨n, hn⟩ r k b (col s k) (by rw [hb]; show _ = 128 * (n / 8) + r.val; rw [hq]) (by rw [col_val]; show _ = 256 * (n % 8) + k.val; rw [hr]))
    (fun k => blk2_apply m c ⟨n, hn⟩ u k (col s k) (by rw [col_val]; show _ = 256 * (n % 8) + k.val; rw [hr]))
    (fun k => blk5_apply m c ⟨n, hn⟩ u k (col s k) (by rw [col_val]; show _ = 256 * (n % 8) + k.val; rw [hr]))

/-! ## The memory gate -/

/-- The memory gate's tile at point n. -/
abbrev tileM (c : Dev nD) (n : ℕ) (h : n < cfg0.N) : FVec Ideal S128x2048 .f32 :=
  tile (iblk m c 0 ⟨n, h⟩) (iblk m c 1 ⟨n, h⟩) (iblk m c 3 ⟨n, h⟩) (iblk m c 6 ⟨n, h⟩)

theorem sc1_step (c : Dev nD) (n : ℕ) (h : n < cfg0.N) (h0 : ¬n % 8 = 0) (acc : Vec Ideal S128x2048 .f32) :
    scAt0_1 m c n h acc = addf acc (tileM m c n h) := by
  unfold scAt0_1
  rw [dif_neg h0]
  by_cases h1 : n % 8 = 7
  · rw [dif_pos h1, accC1, pay11_eq]
  · rw [dif_neg h1, accB1, pay11_eq]

theorem sc1_reset (c : Dev nD) (n : ℕ) (h : n < cfg0.N) (h0 : n % 8 = 0) (acc : Vec Ideal S128x2048 .f32) :
    scAt0_1 m c n h acc = addf (k0_pay6 (F := Ideal)) (tileM m c n h) := by
  unfold scAt0_1
  have h1 : ¬n % 8 = 7 := by omega
  rw [dif_pos h0, dif_neg h1, accA1, pay11_eq]

/-- After the last K-tile of a row block, the memory gate's accumulator plus its two biases is the gate's
    pre-activation at the row block's rows. -/
theorem preM (c : Dev nD) (t : Fin cfg0.N) (h7 : t.val % 8 = 7) (r : Fin 128) (u : Fin 2048) (b : Fin 8192)
    (hb : b.val = 128 * (t.val / 8) + r.val) :
    (((outsAt0 m c t.val t.isLt).2.2.2.1 (ix2 r u) : EReal) + (m ((c : Thread nD τ).loc main_arg6) : S2048.Idx → EReal) (ix1 u)) + (m ((c : Thread nD τ).loc main_arg12) : S2048.Idx → EReal) (ix1 u)
      = Cert.CellSpec.pre (m ((c : Thread nD τ).loc main_arg0) : S8192x2048.Idx → EReal) (m ((c : Thread nD τ).loc main_arg1) : S8192x2048.Idx → EReal) (m ((c : Thread nD τ).loc main_arg5) : S2048x2048.Idx → EReal) (m ((c : Thread nD τ).loc main_arg11) : S2048x2048.Idx → EReal) (m ((c : Thread nD τ).loc main_arg6) : S2048.Idx → EReal) (m ((c : Thread nD τ).loc main_arg12) : S2048.Idx → EReal) b u := by
  rw [soutsAt0_1_eq m c t]
  refine pre_of_fold (scAt0_1 m c) _ (tileM m c) (k0_pay6 (F := Ideal)) pay6_apply (sc1_reset m c) (sc1_step m c)
    t.val h7 _ _ _ _ _ _ _ r u b hb (fun n hn s hs => ?_)
  have hq : n / 8 = t.val / 8 := by omega
  have hr : n % 8 = s.val := by omega
  exact tile_apply_arrays _ _ _ _ _ _ _ _ r u b s
    (fun k => blk0_apply m c ⟨n, hn⟩ r k b (col s k) (by rw [hb]; show _ = 128 * (n / 8) + r.val; rw [hq]) (by rw [col_val]; show _ = 256 * (n % 8) + k.val; rw [hr]))
    (fun k => blk1_apply m c ⟨n, hn⟩ r k b (col s k) (by rw [hb]; show _ = 128 * (n / 8) + r.val; rw [hq]) (by rw [col_val]; show _ = 256 * (n % 8) + k.val; rw [hr]))
    (fun k => blk3_apply m c ⟨n, hn⟩ u k (col s k) (by rw [col_val]; show _ = 256 * (n % 8) + k.val; rw [hr]))
    (fun k => blk6_apply m c ⟨n, hn⟩ u k (col s k) (by rw [col_val]; show _ = 256 * (n % 8) + k.val; rw [hr]))

/-! ## The output gate -/

/-- The output gate's tile at point n. -/
abbrev tileO (c : Dev nD) (n : ℕ) (h : n < cfg0.N) : FVec Ideal S128x2048 .f32 :=
  tile (iblk m c 0 ⟨n, h⟩) (iblk m c 1 ⟨n, h⟩) (iblk m c 4 ⟨n, h⟩) (iblk m c 7 ⟨n, h⟩)

theorem sc2_step (c : Dev nD) (n : ℕ) (h : n < cfg0.N) (h0 : ¬n % 8 = 0) (acc : Vec Ideal S128x2048 .f32) :
    scAt0_2 m c n h acc = addf acc (tileO m c n h) := by
  unfold scAt0_2
  rw [dif_neg h0]
  by_cases h1 : n % 8 = 7
  · rw [dif_pos h1, accC2, pay2_eq]
  · rw [dif_neg h1, accB2, pay2_eq]

theorem sc2_reset (c : Dev nD) (n : ℕ) (h : n < cfg0.N) (h0 : n % 8 = 0) (acc : Vec Ideal S128x2048 .f32) :
    scAt0_2 m c n h acc = addf (k0_pay7 (F := Ideal)) (tileO m c n h) := by
  unfold scAt0_2
  have h1 : ¬n % 8 = 7 := by omega
  rw [dif_pos h0, dif_neg h1, accA2, pay2_eq]

/-- After the last K-tile of a row block, the output gate's accumulator plus its two biases is the gate's
    pre-activation at the row block's rows. -/
theorem preO (c : Dev nD) (t : Fin cfg0.N) (h7 : t.val % 8 = 7) (r : Fin 128) (u : Fin 2048) (b : Fin 8192)
    (hb : b.val = 128 * (t.val / 8) + r.val) :
    (((outsAt0 m c t.val t.isLt).2.2.2.2 (ix2 r u) : EReal) + (m ((c : Thread nD τ).loc main_arg8) : S2048.Idx → EReal) (ix1 u)) + (m ((c : Thread nD τ).loc main_arg14) : S2048.Idx → EReal) (ix1 u)
      = Cert.CellSpec.pre (m ((c : Thread nD τ).loc main_arg0) : S8192x2048.Idx → EReal) (m ((c : Thread nD τ).loc main_arg1) : S8192x2048.Idx → EReal) (m ((c : Thread nD τ).loc main_arg7) : S2048x2048.Idx → EReal) (m ((c : Thread nD τ).loc main_arg13) : S2048x2048.Idx → EReal) (m ((c : Thread nD τ).loc main_arg8) : S2048.Idx → EReal) (m ((c : Thread nD τ).loc main_arg14) : S2048.Idx → EReal) b u := by
  rw [soutsAt0_2_eq m c t]
  refine pre_of_fold (scAt0_2 m c) _ (tileO m c) (k0_pay7 (F := Ideal)) pay7_apply (sc2_reset m c) (sc2_step m c)
    t.val h7 _ _ _ _ _ _ _ r u b hb (fun n hn s hs => ?_)
  have hq : n / 8 = t.val / 8 := by omega
  have hr : n % 8 = s.val := by omega
  exact tile_apply_arrays _ _ _ _ _ _ _ _ r u b s
    (fun k => blk0_apply m c ⟨n, hn⟩ r k b (col s k) (by rw [hb]; show _ = 128 * (n / 8) + r.val; rw [hq]) (by rw [col_val]; show _ = 256 * (n % 8) + k.val; rw [hr]))
    (fun k => blk1_apply m c ⟨n, hn⟩ r k b (col s k) (by rw [hb]; show _ = 128 * (n / 8) + r.val; rw [hq]) (by rw [col_val]; show _ = 256 * (n % 8) + k.val; rw [hr]))
    (fun k => blk4_apply m c ⟨n, hn⟩ u k (col s k) (by rw [col_val]; show _ = 256 * (n % 8) + k.val; rw [hr]))
    (fun k => blk7_apply m c ⟨n, hn⟩ u k (col s k) (by rw [col_val]; show _ = 256 * (n % 8) + k.val; rw [hr]))

end Cert.KernelIdeal.Acc
end
-- ==== Proof.KernelValue.lean ====
/-
  The kernel's two result arrays as the cell's function of the argument arrays.

  At the last K-tile of a row block the kernel computes, from the three finished accumulators, the six biases and the
  old cell state's block, the new cell state σ(g_m)·c + σ(g_i)·tanh(g_m) and the new hidden state σ(g_o)·tanh(c').
  With each accumulator plus its biases read as the gate's pre-activation these are the cell of CellSpec at the row
  block's rows; the 64 row blocks' write-backs tile the [8192, 2048] result arrays.
-/
import proofs.«106272_j28020366639121_1_alg».proof.Proof.Gen.KernelIdeal.Value
import proofs.«106272_j28020366639121_1_alg».proof.Proof.KernelAcc
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.CellValue
open Cert.KernelIdeal Cert.KernelIdeal.Gen Cert.KernelIdeal.Pieces Cert.KernelIdeal.Acc Cert.KernelIdeal.Blocks
open Cert.CellSpec Idealize.ShloMosaic.ValueIdx

/-- A bias row broadcast over the block's rows, at an index. -/
theorem row_apply (v : Vec Ideal S1x2048 .f32) (r : Fin 128) (u : Fin 2048) :
    broadcastTo S128x2048 (shapeCast S1x2048 v shapeCasts_S1x2048_S1x2048) broadcasts_S1x2048_S128x2048 (ix2 r u) = v (ix2 (0 : Fin 1) u) := by
  rw [shapeCast_self]
  exact broadcastTo_1b_ab_apply v _ r u

/-- The new cell state's block at an index: σ(g_m)·c + σ(g_i)·tanh(g_m), the g's the accumulators plus their biases. -/
theorem pay3_apply (S0 : Vec Ideal S128x2048 .f32) (bi di : Vec Ideal S1x2048 .f32) (S1 : Vec Ideal S128x2048 .f32)
    (bm dm : Vec Ideal S1x2048 .f32) (cb : Vec Ideal S128x2048 .f32) (r : Fin 128) (u : Fin 2048) :
    k0_pay3 S0 bi di S1 bm dm cb (ix2 r u)
      = Ideal.logistic ((S1 (ix2 r u) + bm (ix2 (0 : Fin 1) u)) + dm (ix2 (0 : Fin 1) u)) * cb (ix2 r u)
        + Ideal.logistic ((S0 (ix2 r u) + bi (ix2 (0 : Fin 1) u)) + di (ix2 (0 : Fin 1) u))
          * Ideal.tanh ((S1 (ix2 r u) + bm (ix2 (0 : Fin 1) u)) + dm (ix2 (0 : Fin 1) u)) := by
  unfold k0_pay3
  simp only [addf_apply, mulf_apply, logistic, tanh, Ideal.logistic_def, Ideal.tanh_def]
  rw [row_apply bm r u, row_apply dm r u, row_apply bi r u, row_apply di r u]

/-- The new hidden state's block at an index: σ(g_o)·tanh(c'). -/
theorem pay4_apply (S0 : Vec Ideal S128x2048 .f32) (bi di : Vec Ideal S1x2048 .f32) (S1 : Vec Ideal S128x2048 .f32)
    (bm dm : Vec Ideal S1x2048 .f32) (S2 : Vec Ideal S128x2048 .f32) (bo do_ : Vec Ideal S1x2048 .f32)
    (cb : Vec Ideal S128x2048 .f32) (r : Fin 128) (u : Fin 2048) :
    k0_pay4 S0 bi di S1 bm dm S2 bo do_ cb (ix2 r u)
      = Ideal.logistic ((S2 (ix2 r u) + bo (ix2 (0 : Fin 1) u)) + do_ (ix2 (0 : Fin 1) u))
        * Ideal.tanh (k0_pay3 S0 bi di S1 bm dm cb (ix2 r u)) := by
  unfold k0_pay4
  simp only [addf_apply, mulf_apply, logistic, tanh, Ideal.logistic_def, Ideal.tanh_def]
  rw [row_apply bo r u, row_apply do_ r u]

variable (m : (ℓ : Loc nD τ sig) → Buf (Elt Ideal) ℓ) (ρ : Dev nD → PrngReg)

/-- The new cell state as a function of the kernel's argument arrays. -/
abbrev cellOf (c : Dev nD) : FVec Ideal SAct .f32 := cNew (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S2048x2048.Idx → EReal) (m ((c : Thread nD τ).loc main_arg5) : S2048x2048.Idx → EReal) (m ((c : Thread nD τ).loc main_arg4) : S2048.Idx → EReal) (m ((c : Thread nD τ).loc main_arg6) : S2048.Idx → EReal) (m ((c : Thread nD τ).loc main_arg9) : S2048x2048.Idx → EReal) (m ((c : Thread nD τ).loc main_arg11) : S2048x2048.Idx → EReal) (m ((c : Thread nD τ).loc main_arg10) : S2048.Idx → EReal) (m ((c : Thread nD τ).loc main_arg12) : S2048.Idx → EReal)

/-- The new hidden state as a function of the kernel's argument arrays. -/
abbrev hiddenOf (c : Dev nD) : FVec Ideal SAct .f32 := hNew (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S2048x2048.Idx → EReal) (m ((c : Thread nD τ).loc main_arg5) : S2048x2048.Idx → EReal) (m ((c : Thread nD τ).loc main_arg7) : S2048x2048.Idx → EReal) (m ((c : Thread nD τ).loc main_arg4) : S2048.Idx → EReal) (m ((c : Thread nD τ).loc main_arg6) : S2048.Idx → EReal) (m ((c : Thread nD τ).loc main_arg8) : S2048.Idx → EReal) (m ((c : Thread nD τ).loc main_arg9) : S2048x2048.Idx → EReal) (m ((c : Thread nD τ).loc main_arg11) : S2048x2048.Idx → EReal) (m ((c : Thread nD τ).loc main_arg13) : S2048x2048.Idx → EReal) (m ((c : Thread nD τ).loc main_arg10) : S2048.Idx → EReal) (m ((c : Thread nD τ).loc main_arg12) : S2048.Idx → EReal) (m ((c : Thread nD τ).loc main_arg14) : S2048.Idx → EReal)

/-- At the last K-tile the cell-state output block is the update of the accumulators as that point leaves them. -/
theorem out16_last (c : Dev nD) (t : Fin cfg0.N) (h0 : ¬t.val % 8 = 0) (h7 : t.val % 8 = 7) :
    (outsAt0 m c t.val t.isLt).2.1 = k0_pay3 (outsAt0 m c t.val t.isLt).2.2.1 (iblk m c 8 t) (iblk m c 11 t)
      (outsAt0 m c t.val t.isLt).2.2.2.1 (iblk m c 9 t) (iblk m c 12 t) (iblk m c 14 t) := by
  rw [outsAt0_C m c t h0 h7]
  dsimp only
  rw [cellC, accC0, accC1]

/-- And the hidden-state output block likewise. -/
theorem out15_last (c : Dev nD) (t : Fin cfg0.N) (h0 : ¬t.val % 8 = 0) (h7 : t.val % 8 = 7) :
    (outsAt0 m c t.val t.isLt).1 = k0_pay4 (outsAt0 m c t.val t.isLt).2.2.1 (iblk m c 8 t) (iblk m c 11 t)
      (outsAt0 m c t.val t.isLt).2.2.2.1 (iblk m c 9 t) (iblk m c 12 t)
      (outsAt0 m c t.val t.isLt).2.2.2.2 (iblk m c 10 t) (iblk m c 13 t) (iblk m c 14 t) := by
  rw [outsAt0_C m c t h0 h7]
  dsimp only
  rw [hiddenC, accC0, accC1, accC2]

/-- The cell-state output block of a row block's last K-tile, at an index, is the cell's function at the row. -/
theorem out16_apply (c : Dev nD) (t : Fin cfg0.N) (h7 : t.val % 8 = 7) (r : Fin 128) (u : Fin 2048) (b : Fin 8192)
    (hb : b.val = 128 * (t.val / 8) + r.val) :
    ((outsAt0 m c t.val t.isLt).2.1 : Vec Ideal S128x2048 .f32) (ix2 r u) = cellOf m c (ix2 b u) := by
  have h0 : ¬t.val % 8 = 0 := by omega
  rw [out16_last m c t h0 h7, pay3_apply, blk9_apply m c t u, blk12_apply m c t u, blk8_apply m c t u, blk11_apply m c t u,
    blk14_apply m c t r u b hb, preM m c t h7 r u b hb, preI m c t h7 r u b hb]
  rfl

/-- The hidden-state output block likewise. -/
theorem out15_apply (c : Dev nD) (t : Fin cfg0.N) (h7 : t.val % 8 = 7) (r : Fin 128) (u : Fin 2048) (b : Fin 8192)
    (hb : b.val = 128 * (t.val / 8) + r.val) :
    ((outsAt0 m c t.val t.isLt).1 : Vec Ideal S128x2048 .f32) (ix2 r u) = hiddenOf m c (ix2 b u) := by
  have h0 : ¬t.val % 8 = 0 := by omega
  rw [out15_last m c t h0 h7, pay4_apply, ← out16_last m c t h0 h7, out16_apply m c t h7 r u b hb,
    blk10_apply m c t u, blk13_apply m c t u, preO m c t h7 r u b hb]
  rfl

theorem idx15 : ∀ t : Fin cfg0.N, win0_15.index t 0 = t.val / 8 ∧ win0_15.index t 1 = 0 :=
  (by decide +kernel : ∀ t : Fin grid0.N, _)

theorem idx16 : ∀ t : Fin cfg0.N, win0_16.index t 0 = t.val / 8 ∧ win0_16.index t 1 = 0 :=
  (by decide +kernel : ∀ t : Fin grid0.N, _)

/-- What the last K-tile of a row block writes back to the hidden-state array is the row block's rows of the cell's function. -/
theorem flushed15_eq (c : Dev nD) (t : Fin cfg0.N) (hf : (cfg0.win 15).flush t = true) :
    (dats m 0 c).flushed 15 t = ((cfg0.win 15).blk t).view.read (Elt Ideal) (hiddenOf m c) := by
  have h7 : t.val % 8 = 7 := (flush0_15 t).mp hf
  rw [Value.flushed15]
  funext j
  show ((outsAt0 m c t.val t.isLt).1 : Vec Ideal S128x2048 .f32) j = hiddenOf m c (((cfg0.win 15).blk t).view.emb j)
  obtain ⟨r, u, rfl⟩ : ∃ (r : Fin 128) (u : Fin 2048), j = ix2 r u := ⟨j 0, j 1, eq_ix2 j⟩
  have hN : cfg0.N = 512 := N_0
  have hb : 128 * (t.val / 8) + r.val < 8192 := by have := t.isLt; have := r.isLt; omega
  rw [out15_apply m c t h7 r u ⟨128 * (t.val / 8) + r.val, hb⟩ rfl]
  congr 1
  funext a
  apply Fin.ext
  match a with
  | ⟨0, _⟩ => show 128 * (t.val / 8) + r.val = win0_15.index t 0 * 128 + 1 * r.val; rw [(idx15 t).1]; omega
  | ⟨1, _⟩ => show u.val = win0_15.index t 1 * 2048 + 1 * u.val; rw [(idx15 t).2]; omega

/-- The row blocks' last K-tiles cover the hidden-state array, so after the run it holds the cell's function. -/
theorem final15 (c : Dev nD) : (dats m 0 c).arrAt 15 cfg0.N = hiddenOf m c :=
  (dats m 0 c).arrAt_eq_of_cover 15 (hiddenOf m c) (flushed15_eq m c) fun i => by
    have hN : cfg0.N = 512 := N_0
    have hi0 : (i 0).val < 8192 := (i 0).isLt
    have hi1 : (i 1).val < 2048 := (i 1).isLt
    have ht : 8 * ((i 0).val / 128) + 7 < cfg0.N := by omega
    refine ⟨⟨8 * ((i 0).val / 128) + 7, ht⟩, (flush0_15 _).mpr (by show (8 * ((i 0).val / 128) + 7) % 8 = 7; omega), ?_⟩
    show i ∈ ((View.whole main_v14_0).slice (win0_15.rect ⟨8 * ((i 0).val / 128) + 7, ht⟩)).set
    rw [View.set_slice_whole, Rect.mem_set_unit]
    intro a
    match a with
    | ⟨0, _⟩ =>
      show win0_15.index ⟨8 * ((i 0).val / 128) + 7, ht⟩ 0 * 128 ≤ (i 0).val ∧ (i 0).val < win0_15.index ⟨8 * ((i 0).val / 128) + 7, ht⟩ 0 * 128 + 128
      rw [(idx15 ⟨8 * ((i 0).val / 128) + 7, ht⟩).1]
      show (8 * ((i 0).val / 128) + 7) / 8 * 128 ≤ (i 0).val ∧ (i 0).val < (8 * ((i 0).val / 128) + 7) / 8 * 128 + 128
      omega
    | ⟨1, _⟩ =>
      show win0_15.index ⟨8 * ((i 0).val / 128) + 7, ht⟩ 1 * 2048 ≤ (i 1).val ∧ (i 1).val < win0_15.index ⟨8 * ((i 0).val / 128) + 7, ht⟩ 1 * 2048 + 2048
      rw [(idx15 ⟨8 * ((i 0).val / 128) + 7, ht⟩).2]
      omega

/-- What the last K-tile of a row block writes back to the cell-state array is the row block's rows of the cell's function. -/
theorem flushed16_eq (c : Dev nD) (t : Fin cfg0.N) (hf : (cfg0.win 16).flush t = true) :
    (dats m 0 c).flushed 16 t = ((cfg0.win 16).blk t).view.read (Elt Ideal) (cellOf m c) := by
  have h7 : t.val % 8 = 7 := (flush0_16 t).mp hf
  rw [Value.flushed16]
  funext j
  show ((outsAt0 m c t.val t.isLt).2.1 : Vec Ideal S128x2048 .f32) j = cellOf m c (((cfg0.win 16).blk t).view.emb j)
  obtain ⟨r, u, rfl⟩ : ∃ (r : Fin 128) (u : Fin 2048), j = ix2 r u := ⟨j 0, j 1, eq_ix2 j⟩
  have hN : cfg0.N = 512 := N_0
  have hb : 128 * (t.val / 8) + r.val < 8192 := by have := t.isLt; have := r.isLt; omega
  rw [out16_apply m c t h7 r u ⟨128 * (t.val / 8) + r.val, hb⟩ rfl]
  congr 1
  funext a
  apply Fin.ext
  match a with
  | ⟨0, _⟩ => show 128 * (t.val / 8) + r.val = win0_16.index t 0 * 128 + 1 * r.val; rw [(idx16 t).1]; omega
  | ⟨1, _⟩ => show u.val = win0_16.index t 1 * 2048 + 1 * u.val; rw [(idx16 t).2]; omega

/-- The row blocks' last K-tiles cover the cell-state array, so after the run it holds the cell's function. -/
theorem final16 (c : Dev nD) : (dats m 0 c).arrAt 16 cfg0.N = cellOf m c :=
  (dats m 0 c).arrAt_eq_of_cover 16 (cellOf m c) (flushed16_eq m c) fun i => by
    have hN : cfg0.N = 512 := N_0
    have hi0 : (i 0).val < 8192 := (i 0).isLt
    have hi1 : (i 1).val < 2048 := (i 1).isLt
    have ht : 8 * ((i 0).val / 128) + 7 < cfg0.N := by omega
    refine ⟨⟨8 * ((i 0).val / 128) + 7, ht⟩, (flush0_16 _).mpr (by show (8 * ((i 0).val / 128) + 7) % 8 = 7; omega), ?_⟩
    show i ∈ ((View.whole main_v14_1).slice (win0_16.rect ⟨8 * ((i 0).val / 128) + 7, ht⟩)).set
    rw [View.set_slice_whole, Rect.mem_set_unit]
    intro a
    match a with
    | ⟨0, _⟩ =>
      show win0_16.index ⟨8 * ((i 0).val / 128) + 7, ht⟩ 0 * 128 ≤ (i 0).val ∧ (i 0).val < win0_16.index ⟨8 * ((i 0).val / 128) + 7, ht⟩ 0 * 128 + 128
      rw [(idx16 ⟨8 * ((i 0).val / 128) + 7, ht⟩).1]
      show (8 * ((i 0).val / 128) + 7) / 8 * 128 ≤ (i 0).val ∧ (i 0).val < (8 * ((i 0).val / 128) + 7) / 8 * 128 + 128
      omega
    | ⟨1, _⟩ =>
      show win0_16.index ⟨8 * ((i 0).val / 128) + 7, ht⟩ 1 * 2048 ≤ (i 1).val ∧ (i 1).val < win0_16.index ⟨8 * ((i 0).val / 128) + 7, ht⟩ 1 * 2048 + 2048
      rw [(idx16 ⟨8 * ((i 0).val / 128) + 7, ht⟩).2]
      omega

/-- The kernel's run, read: the two result arrays at the cell's function of the arguments, the arguments unchanged. -/
theorem run : θ_run defs (onTc (τ := τ) (main (F := Ideal))) ⟨m, fun _ => 0, ρ⟩ fun r => ∀ c : Dev nD,
      r.2.mem ((c : Thread nD τ).loc main_v14_0) = hiddenOf m c
      ∧ r.2.mem ((c : Thread nD τ).loc main_v14_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Cert.KernelIdeal.CellValue
end
-- ==== Proof.lean ====
/-
  The LSTM cell kernel computes the LSTM cell.

  The kernel tiles the batch into 64 row blocks of 128 rows and the contraction into 8 K-tiles of 256 columns, keeps one
  accumulator per gate across a row block's K-tiles, and at the last K-tile applies the cell's update. Over the
  extended reals the bf16 copies of the operands are the operands, a tile product into a zero accumulator is a sum of
  products, and the eight tiles' sums are one sum over the 2048 columns; with the biases added the accumulators are
  the gates' pre-activations x·Wᵀ + bx + h·Uᵀ + bh in another order of the same additions (commutativity and
  associativity only: no finiteness is used). The reference stacks the three gates' weights, multiplies once and
  splits: column n + 2048·g of its product is gate g's pre-activation at unit n. Both programs then apply
  c' = σ(g_m)·c + σ(g_i)·tanh(g_m) and h' = σ(g_o)·tanh(c'), the reference spelling σ as 1 / (1 + exp (−v)).

  The parts: the cell as one function of the argument arrays (CellSpec); the sums' algebra (GateAlgebra, TiledGate);
  the reference's results are that function (RefIsSpec); the kernel's result arrays are that function (KernelPieces,
  KernelBlocks, KernelAcc, KernelValue). The idealized kernel is the word-level kernel's own text read over the
  extended reals, so the passage between the two asks nothing.
-/
import proofs.«106272_j28020366639121_1_alg».proof.Defs
import proofs.«106272_j28020366639121_1_alg».proof.Proof.Gen.Kernel
import proofs.«106272_j28020366639121_1_alg».proof.Proof.Gen.Kernel.Skeleton
import proofs.«106272_j28020366639121_1_alg».proof.Proof.Gen.Kernel.Launch
import proofs.«106272_j28020366639121_1_alg».proof.Proof.Gen.Kernel.Points
import proofs.«106272_j28020366639121_1_alg».proof.Proof.Gen.Kernel.Frame
import proofs.«106272_j28020366639121_1_alg».proof.Proof.Gen.KernelIdeal
import proofs.«106272_j28020366639121_1_alg».proof.Proof.Gen.KernelIdeal.Skeleton
import proofs.«106272_j28020366639121_1_alg».proof.Proof.Gen.KernelIdeal.Launch
import proofs.«106272_j28020366639121_1_alg».proof.Proof.Gen.KernelIdeal.Points
import proofs.«106272_j28020366639121_1_alg».proof.Proof.Gen.KernelIdeal.Frame
import proofs.«106272_j28020366639121_1_alg».proof.Proof.Gen.ReferenceIdeal
import proofs.«106272_j28020366639121_1_alg».proof.Proof.Gen.Pre_finite_inputs
import proofs.«106272_j28020366639121_1_alg».proof.Proof.Gen.KernelIdeal.Value
import proofs.«106272_j28020366639121_1_alg».proof.Proof.Gen.ReferenceIdeal.Run
import proofs.«106272_j28020366639121_1_alg».proof.Proof.Gen.ReferenceIdeal.Read
import proofs.«106272_j28020366639121_1_alg».proof.Proof.RefIsSpec
import proofs.«106272_j28020366639121_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the cell's new hidden and cell states of the (agreeing) arguments. -/
theorem algebraic : Cert.algebraic_KernelIdeal_ReferenceIdeal := by
  intro m ρ m' ρ' _ hagree
  refine ⟨fun c => Cert.KernelIdeal.CellValue.hiddenOf m c, fun c => Cert.KernelIdeal.CellValue.cellOf m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v41_eq, Cert.RefSpec.ref_h, a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v39_eq, Cert.RefSpec.ref_c, a0, a1, a2, a3, a4, a5, a6, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
